-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S600000 : Shape := ⟨1, ![600000]⟩
abbrev S50000x7 : Shape := ⟨2, ![50000, 7]⟩
abbrev S2x1600000 : Shape := ⟨2, ![2, 1600000]⟩
abbrev S1600000x8 : Shape := ⟨2, ![1600000, 8]⟩
abbrev S128x135 : Shape := ⟨2, ![128, 135]⟩
abbrev S128 : Shape := ⟨1, ![128]⟩
abbrev S128x128 : Shape := ⟨2, ![128, 128]⟩
abbrev S8x8 : Shape := ⟨2, ![8, 8]⟩
abbrev S8 : Shape := ⟨1, ![8]⟩
abbrev S1x8 : Shape := ⟨2, ![1, 8]⟩
abbrev S1 : Shape := ⟨1, ![1]⟩
abbrev S256x128 : Shape := ⟨2, ![256, 128]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S50000x7 : S_.BroadcastsInDim S50000x7 (![] : Fin 0 → Fin S50000x7.rank)
  reducesTo_S50000x7_S_d0_1 : S50000x7.ReducesTo [0, 1] S_
  bcast_S_S1600000x8 : S_.BroadcastsInDim S1600000x8 (![] : Fin 0 → Fin S1600000x8.rank)
  reducesTo_S1600000x8_S_d0_1 : S1600000x8.ReducesTo [0, 1] S_
  bcast_S_S128x135 : S_.BroadcastsInDim S128x135 (![] : Fin 0 → Fin S128x135.rank)
  reducesTo_S128x135_S_d0_1 : S128x135.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S1x256 : S_.BroadcastsInDim S1x256 (![] : Fin 0 → Fin S1x256.rank)
  reducesTo_S1x256_S_d0_1 : S1x256.ReducesTo [0, 1] S_

variable [Facts]

def fn_part4 {F : FTy → Type} [FloatOps F] (main_arg16 : FVec F S1x256 .f32) (main_v63 : IVec S_ 1) (main_v67 : IVec S_ 1) : IVec S_ 1 :=
  let main_v68 : IVec S_ 1 := andi main_v63 main_v67
  let main_v69 : FVec F S1x256 .f32 := Host.absf main_arg16
  let main_cst_26 : FVec F S_ .f32 := constant S_ .f32 0x7F800000#32
  let main_v70 : FVec F S1x256 .f32 := broadcastInDim S1x256 ![] bcast_S_S1x256 main_cst_26
  let main_v71 : IVec S1x256 1 := cmpf .olt main_v69 main_v70
  let main_c_27 : IVec S_ 1 := constantI S_ 1 1#1
  let main_v72 : IVec S_ 1 := (fun x v => Host.reduce IntOp.andi x v reducesTo_S1x256_S_d0_1 h_S_) main_v71 main_c_27
  let main_v73 : IVec S_ 1 := andi main_v68 main_v72
  main_v73

def fn_part3 {F : FTy → Type} [FloatOps F] (main_arg13 : FVec F S256 .f32) (main_arg14 : FVec F S3x256x256 .f32) (main_arg15 : FVec F S3x256 .f32) (main_arg16 : FVec F S1x256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S3x256x256 .f32 := Host.absf main_arg14
  let main_cst_22 : FVec F S_ .f32 := constant S_ .f32 0x7F800000#32
  let main_v60 : FVec F S3x256x256 .f32 := broadcastInDim S3x256x256 ![] bcast_S_S3x256x256 main_cst_22
  let main_v61 : IVec S3x256x256 1 := cmpf .olt main_v59 main_v60
  let main_c_23 : IVec S_ 1 := constantI S_ 1 1#1
  let main_v62 : IVec S_ 1 := (fun x v => Host.reduce IntOp.andi x v reducesTo_S3x256x256_S_d0_1_2 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg16 main_v63 main_v67

def fn_part2 {F : FTy → Type} [FloatOps F] (main_arg9 : FVec F S8 .f32) (main_arg10 : FVec F S1x8 .f32) (main_arg11 : FVec F S1 .f32) (main_arg12 : FVec F S256x128 .f32) (main_arg13 : FVec F S256 .f32) (main_arg14 : FVec F S3x256x256 .f32) (main_arg15 : FVec F S3x256 .f32) (main_arg16 : FVec F S1x256 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8 .f32 := Host.absf main_arg10
  let main_cst_14 : FVec F S_ .f32 := constant S_ .f32 0x7F800000#32
  let main_v40 : FVec F S1x8 .f32 := broadcastInDim S1x8 ![] bcast_S_S1x8 main_cst_14
  let main_v41 : IVec S1x8 1 := cmpf .olt main_v39 main_v40
  let main_c_15 : IVec S_ 1 := constantI S_ 1 1#1
  let main_v42 : IVec S_ 1 := (fun x v => Host.reduce IntOp.andi x v reducesTo_S1x8_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S8x8 .f32) (main_arg9 : FVec F S8 .f32) (main_arg10 : FVec F S1x8 .f32) (main_arg11 : FVec F S1 .f32) (main_arg12 : FVec F S256x128 .f32) (main_arg13 : FVec F S256 .f32) (main_arg14 : FVec F S3x256x256 .f32) (main_arg15 : FVec F S3x256 .f32) (main_arg16 : FVec F S1x256 .f32) (main_v13 : IVec S_ 1) (main_v16 : IVec S128x135 1) : IVec S_ 1 :=
  let main_c_5 : IVec S_ 1 := constantI S_ 1 1#1
  let main_v17 : IVec S_ 1 := (fun x v => Host.reduce IntOp.andi x v reducesTo_S128x135_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S8x8 .f32 := Host.absf main_arg8
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S600000x128 .f32) (main_arg1 : IVec S600000 32) (main_arg2 : FVec F S50000x7 .f32) (main_arg3 : IVec S2x1600000 32) (main_arg4 : FVec F S1600000x8 .f32) (main_arg5 : FVec F S128x135 .f32) (main_arg6 : FVec F S128 .f32) (main_arg7 : FVec F S128x128 .f32) (main_arg8 : FVec F S8x8 .f32) (main_arg9 : FVec F S8 .f32) (main_arg10 : FVec F S1x8 .f32) (main_arg11 : FVec F S1 .f32) (main_arg12 : FVec F S256x128 .f32) (main_arg13 : FVec F S256 .f32) (main_arg14 : FVec F S3x256x256 .f32) (main_arg15 : FVec F S3x256 .f32) (main_arg16 : FVec F S1x256 .f32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S50000x7 .f32 := Host.absf main_arg2
  let main_cst_0 : FVec F S_ .f32 := constant S_ .f32 0x7F800000#32
  let main_v5 : FVec F S50000x7 .f32 := broadcastInDim S50000x7 ![] bcast_S_S50000x7 main_cst_0
  let main_v6 : IVec S50000x7 1 := cmpf .olt main_v4 main_v5
  let main_c_1 : IVec S_ 1 := constantI S_ 1 1#1
  let main_v7 : IVec S_ 1 := (fun x v => Host.reduce IntOp.andi x v reducesTo_S50000x7_S_d0_1 h_S_) main_v6 main_c_1
  let main_v8 : IVec S_ 1 := andi main_v3 main_v7
  let main_v9 : FVec F S1600000x8 .f32 := Host.absf main_arg4
  let main_cst_2 : FVec F S_ .f32 := constant S_ .f32 0x7F800000#32
  let main_v10 : FVec F S1600000x8 .f32 := broadcastInDim S1600000x8 ![] bcast_S_S1600000x8 main_cst_2
  let main_v11 : IVec S1600000x8 1 := cmpf .olt main_v9 main_v10
  let main_c_3 : IVec S_ 1 := constantI S_ 1 1#1
  let main_v12 : IVec S_ 1 := (fun x v => Host.reduce IntOp.andi x v reducesTo_S1600000x8_S_d0_1 h_S_) main_v11 main_c_3
  let main_v13 : IVec S_ 1 := andi main_v8 main_v12
  let main_v14 : FVec F S128x135 .f32 := Host.absf main_arg5
  let main_cst_4 : FVec F S_ .f32 := constant S_ .f32 0x7F800000#32
  let main_v15 : FVec F S128x135 .f32 := broadcastInDim S128x135 ![] bcast_S_S128x135 main_cst_4
  let main_v16 : IVec S128x135 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S600000x128 : Shape := ⟨2, ![600000, 128]⟩
abbrev S600000 : Shape := ⟨1, ![600000]⟩
abbrev S50000x7 : Shape := ⟨2, ![50000, 7]⟩
abbrev S2x1600000 : Shape := ⟨2, ![2, 1600000]⟩
abbrev S1600000x8 : Shape := ⟨2, ![1600000, 8]⟩
abbrev S128x135 : Shape := ⟨2, ![128, 135]⟩
abbrev S128 : Shape := ⟨1, ![128]⟩
abbrev S128x128 : Shape := ⟨2, ![128, 128]⟩
abbrev S8x8 : Shape := ⟨2, ![8, 8]⟩
abbrev S8 : Shape := ⟨1, ![8]⟩
abbrev S1x8 : Shape := ⟨2, ![1, 8]⟩
abbrev S1 : Shape := ⟨1, ![1]⟩
abbrev S256x128 : Shape := ⟨2, ![256, 128]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S_ : Shape := ⟨0, ![]⟩
abbrev S50000x128 : Shape := ⟨2, ![50000, 128]⟩
abbrev S600000x1 : Shape := ⟨2, ![600000, 1]⟩
abbrev S50000x135 : Shape := ⟨2, ![50000, 135]⟩
abbrev S5000x135 : Shape := ⟨2, ![5000, 135]⟩
abbrev S5000x128 : Shape := ⟨2, ![5000, 128]⟩
abbrev S135x128 : Shape := ⟨2, ![135, 128]⟩
abbrev S1x128 : Shape := ⟨2, ![1, 128]⟩
abbrev S1600000x1 : Shape := ⟨2, ![1600000, 1]⟩
abbrev S50000x8 : Shape := ⟨2, ![50000, 8]⟩
abbrev S50000x1 : Shape := ⟨2, ![50000, 1]⟩
abbrev S8x1 : Shape := ⟨2, ![8, 1]⟩
abbrev S1x1 : Shape := ⟨2, ![1, 1]⟩
abbrev S1600000 : Shape := ⟨1, ![1600000]⟩
abbrev S1x1600000 : Shape := ⟨2, ![1, 1600000]⟩
abbrev S50000 : Shape := ⟨1, ![50000]⟩
abbrev S1600000x128 : Shape := ⟨2, ![1600000, 128]⟩
abbrev S5000x1 : Shape := ⟨2, ![5000, 1]⟩
abbrev S128x256 : Shape := ⟨2, ![128, 256]⟩
abbrev S5000x256 : Shape := ⟨2, ![5000, 256]⟩
abbrev S1x256x256 : Shape := ⟨3, ![1, 256, 256]⟩
abbrev S256x256 : Shape := ⟨2, ![256, 256]⟩
abbrev S256x1 : Shape := ⟨2, ![256, 1]⟩

abbrev nBuf : Space → Nat
  | .hbm => 102
  | .vmem => 33
  | .smem => 0
  | _ => 0

abbrev bufTy : (tb : Table) → Fin (tcTables nBuf tb) → BufTy
  | .hbm, ⟨0, _⟩ => ⟨S600000x128, .f32⟩
  | .hbm, ⟨1, _⟩ => ⟨S600000, .i32⟩
  | .hbm, ⟨2, _⟩ => ⟨S50000x7, .f32⟩
  | .hbm, ⟨3, _⟩ => ⟨S2x1600000, .i32⟩
  | .hbm, ⟨4, _⟩ => ⟨S1600000x8, .f32⟩
  | .hbm, ⟨5, _⟩ => ⟨S128x135, .f32⟩
  | .hbm, ⟨6, _⟩ => ⟨S128, .f32⟩
  | .hbm, ⟨7, _⟩ => ⟨S128x128, .f32⟩
  | .hbm, ⟨8, _⟩ => ⟨S8x8, .f32⟩
  | .hbm, ⟨9, _⟩ => ⟨S8, .f32⟩
  | .hbm, ⟨10, _⟩ => ⟨S1x8, .f32⟩
  | .hbm, ⟨11, _⟩ => ⟨S1, .f32⟩
  | .hbm, ⟨12, _⟩ => ⟨S256x128, .f32⟩
  | .hbm, ⟨13, _⟩ => ⟨S256, .f32⟩
  | .hbm, ⟨14, _⟩ => ⟨S3x256x256, .f32⟩
  | .hbm, ⟨15, _⟩ => ⟨S3x256, .f32⟩
  | .hbm, ⟨16, _⟩ => ⟨S1x256, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x135, .f32⟩
  | .hbm, ⟨22, _⟩ => ⟨S50000x128, .f32⟩
  | .hbm, ⟨23, _⟩ => ⟨S1600000x1, .f32⟩
  | .hbm, ⟨24, _⟩ => ⟨S1600000, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000, .f32⟩
  | .hbm, ⟨64, _⟩ => ⟨S50000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x1, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S50000x128, .f32⟩
  | .hbm, ⟨79, _⟩ => ⟨S1600000x1, .i32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x1, .f32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S50000x128, .f32⟩
  | .hbm, ⟨96, _⟩ => ⟨S1600000x1, .i32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x1, .f32⟩
  | .local _ .vmem, ⟨0, _⟩ => ⟨S5000x135, .f32⟩
  | .local _ .vmem, ⟨1, _⟩ => ⟨S5000x135, .f32⟩
  | .local _ .vmem, ⟨2, _⟩ => ⟨S128x135, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S50000x8, .f32⟩
  | .local _ .vmem, ⟨7, _⟩ => ⟨S50000x8, .f32⟩
  | .local _ .vmem, ⟨8, _⟩ => ⟨S8x8, .f32⟩
  | .local _ .vmem, ⟨9, _⟩ => ⟨S8, .f32⟩
  | .local _ .vmem, ⟨10, _⟩ => ⟨S1x8, .f32⟩
  | .local _ .vmem, ⟨11, _⟩ => ⟨S1, .f32⟩
  | .local _ .vmem, ⟨12, _⟩ => ⟨S50000x1, .f32⟩
  | .local _ .vmem, ⟨13, _⟩ => ⟨S50000x1, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S256x128, .f32⟩
  | .local _ .vmem, ⟨27, _⟩ => ⟨S256, .f32⟩
  | .local _ .vmem, ⟨28, _⟩ => ⟨S3x256x256, .f32⟩
  | .local _ .vmem, ⟨29, _⟩ => ⟨S3x256, .f32⟩
  | .local _ .vmem, ⟨30, _⟩ => ⟨S1x256, .f32⟩
  | .local _ .vmem, ⟨31, _⟩ => ⟨S5000x1, .f32⟩
  | .local _ .vmem, ⟨32, _⟩ => ⟨S5000x1, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_cst : Ref sig .tc := ⟨.hbm, 98, rfl⟩
abbrev main_call1_v0 : Ref sig .tc := ⟨.hbm, 99, rfl⟩
abbrev main_v64 : Ref sig .tc := ⟨.hbm, 100, rfl⟩
abbrev main_v65 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x135 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x135 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S50000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S50000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S3x256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x7_S50000x135_d1 : Shape.Concatenates [S50000x128, S50000x7] S50000x135 1
  inb_S5000x135_S5000x135_0_0 : ∀ a, (![0, 0] : Fin 2 → Nat) a + S5000x135.size a ≤ S5000x135.size a
  h_S5000x135 : 0 < S5000x135.numel
  shapeCasts_S5000x135_S5000x135 : S5000x135.ShapeCasts S5000x135
  inb_S128x135_S128x135_0_0 : ∀ a, (![0, 0] : Fin 2 → Nat) a + S128x135.size a ≤ S128x135.size a
  h_S128x135 : 0 < S128x135.numel
  transposes_S128x135_p1_0_S135x128 : S128x135.Transposes [1, 0] S135x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S50000x8_S50000x8_0_0 : ∀ a, (![0, 0] : Fin 2 → Nat) a + S50000x8.size a ≤ S50000x8.size a
  h_S50000x8 : 0 < S50000x8.numel
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S8_S8_0 : ∀ a, (![0] : Fin 1 → Nat) a + S8.size a ≤ S8.size a
  h_S8 : 0 < S8.numel
  shapeCasts_S8_S1x8 : S8.ShapeCasts S1x8
  broadcasts_S1x8_S50000x8 : S1x8.Broadcasts S50000x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S50000x1 : S1x1.Broadcasts S50000x1
  inb_S50000x1_S50000x1_0_0 : ∀ a, (![0, 0] : Fin 2 → Nat) a + S50000x1.size a ≤ S50000x1.size a
  h_S50000x1 : 0 < S50000x1.numel
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S1600000x1_S1600000x128_0_1 : S1600000x1.BroadcastsInDim S1600000x128 (![0, 1] : Fin 2 → Fin S1600000x128.rank)
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  transposes_S256x256_p1_0_S256x256 : S256x256.Transposes [1, 0] S256x256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  inb_S1x256_S1x256_0_0 : ∀ a, (![0, 0] : Fin 2 → Nat) a + S1x256.size a ≤ S1x256.size a
  transposes_S1x256_p1_0_S256x1 : S1x256.Transposes [1, 0] S256x1
  inb_S5000x1_S5000x1_0_0 : ∀ a, (![0, 0] : Fin 2 → Nat) a + S5000x1.size a ≤ S5000x1.size a
  h_S5000x1 : 0 < S5000x1.numel
  scatter_S50000x128_S600000x1_S600000x128_1_0_0_1_wf : ScatterDims.WF S50000x128 S600000x1 S600000x128 [1] [0] [0] 1
  dot_S5000x135_S135x128_S5000x128_1_0_0_1_n_n_wf : DotDims.WF S5000x135 S135x128 S5000x128 [1] [0] [0] [1] [] []
  dot_S50000x8_S8x8_S50000x8_1_0_0_1_n_n_wf : DotDims.WF S50000x8 S8x8 S50000x8 [1] [0] [0] [1] [] []
  dot_S50000x8_S8x1_S50000x1_1_0_0_1_n_n_wf : DotDims.WF S50000x8 S8x1 S50000x1 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x135.size a ≤ S50000x135.size a
  hwx0_0 : ∀ i : grid0.Coords, EltTy.bits .f32 = 32 ∨ (Rect.block (s := S50000x135) S5000x135.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x135.size a ≤ S128x135.size a
  hwx0_1 : ∀ i : grid0.Coords, EltTy.bits .f32 = 32 ∨ (Rect.block (s := S128x135) S128x135.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S50000x8.size a ≤ S1600000x8.size a
  hwx1_0 : ∀ i : grid1.Coords, EltTy.bits .f32 = 32 ∨ (Rect.block (s := S1600000x8) S50000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x8.size a ≤ S8x8.size a
  hwx1_1 : ∀ i : grid1.Coords, EltTy.bits .f32 = 32 ∨ (Rect.block (s := S8x8) S8x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S50000x1.size a ≤ S1600000x1.size a
  hwx1_5 : ∀ i : grid1.Coords, EltTy.bits .f32 = 32 ∨ (Rect.block (s := S1600000x1) S50000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x256x256.size a ≤ S3x256x256.size a
  hwx4_3 : ∀ i : grid4.Coords, EltTy.bits .f32 = 32 ∨ (Rect.block (s := S3x256x256) S3x256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x256.size a ≤ S3x256.size a
  hwx4_4 : ∀ i : grid4.Coords, EltTy.bits .f32 = 32 ∨ (Rect.block (s := S3x256) S3x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S50000x1.size a
  hwx4_6 : ∀ i : grid4.Coords, EltTy.bits .f32 = 32 ∨ (Rect.block (s := S50000x1) S5000x1.size (cc4_transform_6 i) (hinb4_6 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x135_S135x128_S5000x128_1_0_0_1_n_n : DotDims S5000x135 S135x128 S5000x128 where
  lhsContracting := [1]
  rhsContracting := [0]
  lhsNonContracting := [0]
  rhsNonContracting := [1]
  lhsBatch := []
  rhsBatch := []
  wf := dot_S5000x135_S135x128_S5000x128_1_0_0_1_n_n_wf
def dot_S50000x8_S8x8_S50000x8_1_0_0_1_n_n : DotDims S50000x8 S8x8 S50000x8 where
  lhsContracting := [1]
  rhsContracting := [0]
  lhsNonContracting := [0]
  rhsNonContracting := [1]
  lhsBatch := []
  rhsBatch := []
  wf := dot_S50000x8_S8x8_S50000x8_1_0_0_1_n_n_wf
def dot_S50000x8_S8x1_S50000x1_1_0_0_1_n_n : DotDims S50000x8 S8x1 S50000x1 where
  lhsContracting := [1]
  rhsContracting := [0]
  lhsNonContracting := [0]
  rhsNonContracting := [1]
  lhsBatch := []
  rhsBatch := []
  wf := dot_S50000x8_S8x1_S50000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v3) S5000x135.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x135.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S50000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S8x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S50000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S3x256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S3x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S600000x128 : Shape := ⟨2, ![600000, 128]⟩
abbrev S600000 : Shape := ⟨1, ![600000]⟩
abbrev S50000x7 : Shape := ⟨2, ![50000, 7]⟩
abbrev S2x1600000 : Shape := ⟨2, ![2, 1600000]⟩
abbrev S1600000x8 : Shape := ⟨2, ![1600000, 8]⟩
abbrev S128x135 : Shape := ⟨2, ![128, 135]⟩
abbrev S128 : Shape := ⟨1, ![128]⟩
abbrev S128x128 : Shape := ⟨2, ![128, 128]⟩
abbrev S8x8 : Shape := ⟨2, ![8, 8]⟩
abbrev S8 : Shape := ⟨1, ![8]⟩
abbrev S1x8 : Shape := ⟨2, ![1, 8]⟩
abbrev S1 : Shape := ⟨1, ![1]⟩
abbrev S256x128 : Shape := ⟨2, ![256, 128]⟩
abbrev S256 : Shape := ⟨1, ![256]⟩
abbrev S3x256x256 : Shape := ⟨3, ![3, 256, 256]⟩
abbrev S3x256 : Shape := ⟨2, ![3, 256]⟩
abbrev S1x256 : Shape := ⟨2, ![1, 256]⟩
abbrev S_ : Shape := ⟨0, ![]⟩
abbrev S50000x128 : Shape := ⟨2, ![50000, 128]⟩
abbrev S600000x1 : Shape := ⟨2, ![600000, 1]⟩
abbrev S50000x135 : Shape := ⟨2, ![50000, 135]⟩
abbrev S135x128 : Shape := ⟨2, ![135, 128]⟩
abbrev S1x128 : Shape := ⟨2, ![1, 128]⟩
abbrev S8x1 : Shape := ⟨2, ![8, 1]⟩
abbrev S1600000x1 : Shape := ⟨2, ![1600000, 1]⟩
abbrev S1x1 : Shape := ⟨2, ![1, 1]⟩
abbrev S1600000 : Shape := ⟨1, ![1600000]⟩
abbrev S1x1600000 : Shape := ⟨2, ![1, 1600000]⟩
abbrev S50000 : Shape := ⟨1, ![50000]⟩
abbrev S1600000x128 : Shape := ⟨2, ![1600000, 128]⟩
abbrev S128x256 : Shape := ⟨2, ![128, 256]⟩
abbrev S50000x256 : Shape := ⟨2, ![50000, 256]⟩
abbrev S1x256x256 : Shape := ⟨3, ![1, 256, 256]⟩
abbrev S256x256 : Shape := ⟨2, ![256, 256]⟩
abbrev S256x1 : Shape := ⟨2, ![256, 1]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S600000x128, .f32⟩
  | 1 => ⟨S600000, .i32⟩
  | 2 => ⟨S50000x7, .f32⟩
  | 3 => ⟨S2x1600000, .i32⟩
  | 4 => ⟨S1600000x8, .f32⟩
  | 5 => ⟨S128x135, .f32⟩
  | 6 => ⟨S128, .f32⟩
  | 7 => ⟨S128x128, .f32⟩
  | 8 => ⟨S8x8, .f32⟩
  | 9 => ⟨S8, .f32⟩
  | 10 => ⟨S1x8, .f32⟩
  | 11 => ⟨S1, .f32⟩
  | 12 => ⟨S256x128, .f32⟩
  | 13 => ⟨S256, .f32⟩
  | 14 => ⟨S3x256x256, .f32⟩
  | 15 => ⟨S3x256, .f32⟩
  | 16 => ⟨S1x256, .f32⟩
  | 17 => ⟨S_, .f32⟩
  | 18 => ⟨S50000x128, .f32⟩
  | 19 => ⟨S600000x1, .i32⟩
  | 20 => ⟨S50000x128, .f32⟩
  | 21 => ⟨S50000x135, .f32⟩
  | 22 => ⟨S135x128, .f32⟩
  | 23 => ⟨S50000x128, .f32⟩
  | 24 => ⟨S1x128, .f32⟩
  | 25 => ⟨S50000x128, .f32⟩
  | 26 => ⟨S50000x128, .f32⟩
  | 27 => ⟨S8x8, .f32⟩
  | 28 => ⟨S1600000x8, .f32⟩
  | 29 => ⟨S1x8, .f32⟩
  | 30 => ⟨S1600000x8, .f32⟩
  | 31 => ⟨S1600000x8, .f32⟩
  | 32 => ⟨S_, .f32⟩
  | 33 => ⟨S1600000x8, .f32⟩
  | 34 => ⟨S1600000x8, .f32⟩
  | 35 => ⟨S8x1, .f32⟩
  | 36 => ⟨S1600000x1, .f32⟩
  | 37 => ⟨S1x1, .f32⟩
  | 38 => ⟨S1600000x1, .f32⟩
  | 39 => ⟨S1600000x1, .f32⟩
  | 40 => ⟨S1600000x1, .f32⟩
  | 41 => ⟨S1600000x1, .f32⟩
  | 42 => ⟨S_, .f32⟩
  | 43 => ⟨S1600000x1, .f32⟩
  | 44 => ⟨S1600000x1, .f32⟩
  | 45 => ⟨S_, .f32⟩
  | 46 => ⟨S1600000x1, .f32⟩
  | 47 => ⟨S1600000x1, .f32⟩
  | 48 => ⟨S1600000, .f32⟩
  | 49 => ⟨S1x1600000, .i32⟩
  | 50 => ⟨S1600000, .i32⟩
  | 51 => ⟨S1x1600000, .i32⟩
  | 52 => ⟨S1600000, .i32⟩
  | 53 => ⟨S_, .f32⟩
  | 54 => ⟨S50000, .f32⟩
  | 55 => ⟨S1600000x1, .i32⟩
  | 56 => ⟨S50000, .f32⟩
  | 57 => ⟨S_, .f32⟩
  | 58 => ⟨S50000, .f32⟩
  | 59 => ⟨S50000, .i1⟩
  | 60 => ⟨S_, .f32⟩
  | 61 => ⟨S50000, .f32⟩
  | 62 => ⟨S50000, .f32⟩
  | 63 => ⟨S50000, .f32⟩
  | 64 => ⟨S_, .f32⟩
  | 65 => ⟨S_, .f32⟩
  | 66 => ⟨S50000, .f32⟩
  | 67 => ⟨S50000, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000, .f32⟩
  | 77 => ⟨S1600000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000, .f32⟩
  | 88 => ⟨S128x128, .f32⟩
  | 89 => ⟨S50000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x1, .f32⟩
  | 100 => ⟨S1600000x128, .f32⟩
  | 101 => ⟨S1600000x128, .f32⟩
  | 102 => ⟨S_, .f32⟩
  | 103 => ⟨S50000x128, .f32⟩
  | 104 => ⟨S1600000x1, .i32⟩
  | 105 => ⟨S50000x128, .f32⟩
  | 106 => ⟨S128x128, .f32⟩
  | 107 => ⟨S50000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1600000x1, .f32⟩
  | 118 => ⟨S1600000x128, .f32⟩
  | 119 => ⟨S1600000x128, .f32⟩
  | 120 => ⟨S_, .f32⟩
  | 121 => ⟨S50000x128, .f32⟩
  | 122 => ⟨S1600000x1, .i32⟩
  | 123 => ⟨S50000x128, .f32⟩
  | 124 => ⟨S_, .f32⟩
  | 125 => ⟨S50000x128, .f32⟩
  | 126 => ⟨S50000x128, .f32⟩
  | 127 => ⟨S128x256, .f32⟩
  | _ => ⟨S600000x128, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S1x256x256, .f32⟩
  | 5 => ⟨S256x256, .f32⟩
  | 6 => ⟨S256x256, .f32⟩
  | 7 => ⟨S50000x256, .f32⟩
  | 8 => ⟨S1x256, .f32⟩
  | 9 => ⟨S256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S1x256x256, .f32⟩
  | 17 => ⟨S256x256, .f32⟩
  | 18 => ⟨S256x256, .f32⟩
  | 19 => ⟨S50000x256, .f32⟩
  | 20 => ⟨S1x256, .f32⟩
  | 21 => ⟨S256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S1x256x256, .f32⟩
  | 29 => ⟨S256x256, .f32⟩
  | 30 => ⟨S256x256, .f32⟩
  | 31 => ⟨S50000x256, .f32⟩
  | 32 => ⟨S1x256, .f32⟩
  | 33 => ⟨S256, .f32⟩
  | 34 => ⟨S1x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S256x1, .f32⟩
  | 41 => ⟨S50000x1, .f32⟩
  | _ => ⟨S600000x128, .f32⟩

abbrev hbmTy (i : Nat) : BufTy := match i / 128 with
  | 0 => hbmTy0_0 i
  | 1 => hbmTy0_1 i
  | _ => ⟨S600000x128, .f32⟩

abbrev bufTy : (tb : Table) → Fin (tcTables nBuf tb) → BufTy
  | .hbm, ⟨i, _⟩ => hbmTy i
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_v40 : Ref sig .tc := ⟨.hbm, 67, rfl⟩
abbrev main_c : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call1_cst : Ref sig .tc := ⟨.hbm, 124, rfl⟩
abbrev main_call1_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_call2_cst : Ref sig .tc := ⟨.hbm, 141, rfl⟩
abbrev main_call2_v0 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call3_cst : Ref sig .tc := ⟨.hbm, 153, rfl⟩
abbrev main_call3_v0 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call4_cst : Ref sig .tc := ⟨.hbm, 165, rfl⟩
abbrev main_call4_v0 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x7_S50000x135_d1 : Shape.Concatenates [S50000x128, S50000x7] S50000x135 1
  transposes_S128x135_S135x128_1_0 : S128x135.Transposes [1, 0] S135x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S8x8_S8x8_1_0 : S8x8.Transposes [1, 0] S8x8
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000x8 : S_.BroadcastsInDim S1600000x8 (![] : Fin 0 → Fin S1600000x8.rank)
  transposes_S1x8_S8x1_1_0 : S1x8.Transposes [1, 0] S8x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  transposes_S128x128_S128x128_1_0 : S128x128.Transposes [1, 0] S128x128
  bcast_S1600000x1_S1600000x128_0_1 : S1600000x1.BroadcastsInDim S1600000x128 (![0, 1] : Fin 2 → Fin S1600000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S_S50000x256 : S_.BroadcastsInDim S50000x256 (![] : Fin 0 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  transposes_S1x256_S256x1_1_0 : S1x256.Transposes [1, 0] S256x1
  scatter_S50000x128_S600000x1_S600000x128_1_0_0_1_wf : ScatterDims.WF S50000x128 S600000x1 S600000x128 [1] [0] [0] 1
  dot_S50000x135_S135x128_S50000x128_1_0_0_1_n_n_wf : DotDims.WF S50000x135 S135x128 S50000x128 [1] [0] [0] [1] [] []
  dot_S1600000x8_S8x8_S1600000x8_1_0_0_1_n_n_wf : DotDims.WF S1600000x8 S8x8 S1600000x8 [1] [0] [0] [1] [] []
  dot_S1600000x8_S8x1_S1600000x1_1_0_0_1_n_n_wf : DotDims.WF S1600000x8 S8x1 S1600000x1 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x135_S135x128_S50000x128_1_0_0_1_n_n : DotDims S50000x135 S135x128 S50000x128 where
  lhsContracting := [1]
  rhsContracting := [0]
  lhsNonContracting := [0]
  rhsNonContracting := [1]
  lhsBatch := []
  rhsBatch := []
  wf := dot_S50000x135_S135x128_S50000x128_1_0_0_1_n_n_wf
def dot_S1600000x8_S8x8_S1600000x8_1_0_0_1_n_n : DotDims S1600000x8 S8x8 S1600000x8 where
  lhsContracting := [1]
  rhsContracting := [0]
  lhsNonContracting := [0]
  rhsNonContracting := [1]
  lhsBatch := []
  rhsBatch := []
  wf := dot_S1600000x8_S8x8_S1600000x8_1_0_0_1_n_n_wf
def dot_S1600000x8_S8x1_S1600000x1_1_0_0_1_n_n : DotDims S1600000x8 S8x1 S1600000x1 where
  lhsContracting := [1]
  rhsContracting := [0]
  lhsNonContracting := [0]
  rhsNonContracting := [1]
  lhsBatch := []
  rhsBatch := []
  wf := dot_S1600000x8_S8x1_S1600000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.Spec.lean ====
/-
  The dense layers of the network as functions on whole arrays of extended reals, index by index.
  A layer is rows times transposed weights: entry (r, c) of `mulT x w` is the sum over k of x[r, k] · w[c, k];
  `addRow` adds a bias along the last axis, `relu` takes the maximum with zero, `sigm` is 1 / (1 + e^(-y)).
  Every one of them acts on each row by itself, which `rowsFrom` (a band of consecutive rows) records:
  a layer of a band of rows is the same band of the layer.
-/
import Idealize.ShloMosaic.PureOps.Ideal
import Idealize.ShloMosaic.Lib.ValueIdx

noncomputable section

namespace Cert.Spec

open Idealize.ShloMosaic Idealize.ShloMosaic.ValueIdx

/-- A matrix of extended reals with `R` rows and `C` columns. -/
abbrev Mat (R C : Nat) : Type := (⟨2, ![R, C]⟩ : Shape).Idx → EReal
/-- A vector of extended reals of length `C`. -/
abbrev Row (C : Nat) : Type := (⟨1, ![C]⟩ : Shape).Idx → EReal
/-- A stack of `L` matrices. -/
abbrev Stack (L R C : Nat) : Type := (⟨3, ![L, R, C]⟩ : Shape).Idx → EReal

/-- `x · wᵀ`: entry (r, c) is the sum over k of x[r, k] · w[c, k]. -/
def mulT {R K C : Nat} (x : Mat R K) (w : Mat C K) : Mat R C :=
  fun i => ∑ k : Fin K, x (ix2 (i 0) k) * w (ix2 (i 1) k)

/-- A bias added along the last axis. -/
def addRow {R C : Nat} (y : Mat R C) (b : Row C) : Mat R C := fun i => y i + b (ix1 (i 1))

/-- The maximum with zero, entry by entry. -/
def relu {R C : Nat} (y : Mat R C) : Mat R C := fun i => max (y i) 0

/-- The logistic function, entry by entry. -/
def sigm {R C : Nat} (y : Mat R C) : Mat R C := fun i => Ideal.logistic (y i)

/-- Matrix `l` of a stack. -/
def plane {L R C : Nat} (l : Fin L) (w : Stack L R C) : Mat R C := fun i => w (ix3 l (i 0) (i 1))

/-- Row `l` of a matrix, as a vector. -/
def rowOf {L C : Nat} (l : Fin L) (b : Mat L C) : Row C := fun i => b (ix2 l (i 0))

/-- Rows `o … o + R' - 1` of a matrix. -/
def rowsFrom {R R' C : Nat} (o : Nat) (h : o + R' ≤ R) (x : Mat R C) : Mat R' C :=
  fun y => x (ix2 ⟨o + (y 0).val, by have := (y 0).isLt; simp at this; omega⟩ (y 1))

theorem mulT_rowsFrom {R R' K C : Nat} (o : Nat) (h : o + R' ≤ R) (x : Mat R K) (w : Mat C K) :
    mulT (rowsFrom o h x) w = rowsFrom o h (mulT x w) := rfl

theorem addRow_rowsFrom {R R' C : Nat} (o : Nat) (h : o + R' ≤ R) (y : Mat R C) (b : Row C) :
    addRow (rowsFrom o h y) b = rowsFrom o h (addRow y b) := rfl

theorem relu_rowsFrom {R R' C : Nat} (o : Nat) (h : o + R' ≤ R) (y : Mat R C) :
    relu (rowsFrom o h y) = rowsFrom o h (relu y) := rfl

theorem sigm_rowsFrom {R R' C : Nat} (o : Nat) (h : o + R' ≤ R) (y : Mat R C) :
    sigm (rowsFrom o h y) = rowsFrom o h (sigm y) := rfl

/-- The first linear layer: `x · wᵀ + b`. -/
def affine {R K C : Nat} (x : Mat R K) (w : Mat C K) (b : Row C) : Mat R C := addRow (mulT x w) b

/-- The edge gate: `sigm (relu (a · w1ᵀ + b1) · w2ᵀ + b2)`. -/
def gate {R : Nat} (a : Mat R 8) (w1 : Mat 8 8) (b1 : Row 8) (w2 : Mat 1 8) (b2 : Row 1) : Mat R 1 :=
  sigm (affine (relu (affine a w1 b1)) w2 b2)

/-- The output head: an affine layer, three affine layers each followed by `relu`, a last product without bias. -/
def head {R : Nat} (v : Mat R 128) (uw : Mat 256 128) (ub : Row 256) (lw : Stack 3 256 256) (lb : Mat 3 256) (fw : Mat 1 256) : Mat R 1 :=
  mulT (relu (affine (relu (affine (relu (affine (affine v uw ub) (plane 0 lw) (rowOf 0 lb))) (plane 1 lw) (rowOf 1 lb))) (plane 2 lw) (rowOf 2 lb))) fw

theorem affine_rowsFrom {R R' K C : Nat} (o : Nat) (h : o + R' ≤ R) (x : Mat R K) (w : Mat C K) (b : Row C) :
    affine (rowsFrom o h x) w b = rowsFrom o h (affine x w b) := rfl

theorem gate_rowsFrom {R R' : Nat} (o : Nat) (h : o + R' ≤ R) (a : Mat R 8) (w1 : Mat 8 8) (b1 : Row 8) (w2 : Mat 1 8) (b2 : Row 1) :
    gate (rowsFrom o h a) w1 b1 w2 b2 = rowsFrom o h (gate a w1 b1 w2 b2) := rfl

theorem head_rowsFrom {R R' : Nat} (o : Nat) (h : o + R' ≤ R) (v : Mat R 128) (uw : Mat 256 128) (ub : Row 256) (lw : Stack 3 256 256) (lb : Mat 3 256) (fw : Mat 1 256) :
    head (rowsFrom o h v) uw ub lw lb fw = rowsFrom o h (head v uw ub lw lb fw) := rfl

end Cert.Spec

end
-- ==== Proof.Reg0.lean ====
/-
  The first linear layer: what its launch leaves in the result array. The body multiplies a band of 5000 rows by
  the transposed weights and adds the bias along the last axis; the ten bands tile the 50000 rows, so the array
  ends at the whole layer `x · wᵀ + b`.
-/
import proofs.«427005_j40638980555086_1_alg».proof.Proof.Gen.KernelIdeal.Frame
import proofs.«427005_j40638980555086_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

abbrev D0 := dot_S5000x135_S135x128_S5000x128_1_0_0_1_n_n

/-! The product's operand indices, axis by axis: the left operand is read at (row, k), the right at (k, column). -/

theorem lhs0 (i : S5000x128.Idx) (q : D0.contr.Idx) : (D0.lhsIdx i q 0).val = (i 0).val := by
  unfold DotDims.lhsIdx
  rw [dif_neg (show ¬(0 : Fin S5000x135.rank) ∈ D0.lhsBatch by decide), dif_pos (show (0 : Fin S5000x135.rank) ∈ D0.lhsNonContracting by decide)]
  rfl
theorem lhs1 (i : S5000x128.Idx) (q : D0.contr.Idx) : (D0.lhsIdx i q 1).val = (q ⟨0, by decide⟩).val :=
  D0.lhsIdx_val_of_single rfl i q
theorem rhs0 (i : S5000x128.Idx) (q : D0.contr.Idx) : (D0.rhsIdx i q 0).val = (q ⟨0, by decide⟩).val :=
  D0.rhsIdx_val_of_single rfl i q
theorem rhs1 (i : S5000x128.Idx) (q : D0.contr.Idx) : (D0.rhsIdx i q 1).val = (i 1).val := by
  unfold DotDims.rhsIdx
  rw [dif_neg (show ¬(1 : Fin S135x128.rank) ∈ D0.rhsBatch by decide), dif_pos (show (1 : Fin S135x128.rank) ∈ D0.rhsNonContracting by decide)]
  rfl

/-- The product into the zero accumulator is the band's rows times the transposed weights. -/
theorem pay_mul (x0 : Vec Ideal S5000x135 .f32) (x1 : Vec Ideal S128x135 .f32) (j : S5000x128.Idx) :
    matmul (F := Ideal) (φ₁ := .f32) (φ₂ := .f32) D0 none x0 (transpose S135x128 [1, 0] x1 transposes_S128x135_p1_0_S135x128) (constant (F := Ideal) S5000x128 .f32 0x00000000#32) j
      = Spec.mulT x0 x1 j := by
  refine (Ideal.matmul_constant_zero_apply D0 none x0 _ j).trans ?_
  rw [← Equiv.sum_comp (contrEquiv1 D0 135 rfl rfl).symm]
  unfold Spec.mulT
  refine Finset.sum_congr rfl fun k _ => ?_
  have hk := contrEquiv1_symm_val D0 135 rfl rfl k
  have el : D0.lhsIdx j ((contrEquiv1 D0 135 rfl rfl).symm k) = ix2 (j 0) k := funext fun a => Fin.ext (by
    match a with
    | ⟨0, _⟩ => exact lhs0 _ _
    | ⟨1, _⟩ => exact (lhs1 _ _).trans hk)
  rw [el]
  refine congrArg (x0 (ix2 (j 0) k) * ·) ?_
  refine transpose_apply [1, 0] x1 transposes_S128x135_p1_0_S135x128 _ (ix2 (j 1) k) (fun b => ?_)
  match b with
  | ⟨0, _⟩ => exact ((rhs0 _ _).trans hk).symm
  | ⟨1, _⟩ => exact (rhs1 _ _).symm

/-- The bias, viewed as one row and repeated down the band, reads its column's entry at every row. -/
theorem pay_bias (x2 : Vec Ideal S128 .f32) (j : S5000x128.Idx) :
    broadcastTo S5000x128 (shapeCast S1x128 x2 shapeCasts_S128_S1x128) broadcasts_S1x128_S5000x128 j = x2 (ix1 (j 1)) := by
  refine (broadcastTo_apply _ broadcasts_S1x128_S5000x128 j (ix2 (0 : Fin 1) (j 1)) (fun a => ?_)).trans ?_
  · match a with
    | ⟨0, _⟩ => rfl
    | ⟨1, _⟩ => rfl
  · refine (shapeCast_addUnit_apply ![128] x2 shapeCasts_S128_S1x128 (ix2 (0 : Fin 1) (j 1))).trans ?_
    refine congrArg x2 (funext fun a => ?_)
    match a with
    | ⟨0, _⟩ => rfl

/-- The body's one stored value is the band's rows times the transposed weights, plus the bias. -/
theorem pay (x0 : Vec Ideal S5000x135 .f32) (x1 : Vec Ideal S128x135 .f32) (x2 : Vec Ideal S128 .f32) :
    k0_pay1 (F := Ideal) x0 x1 x2 = Spec.affine x0 x1 x2 := by
  funext j
  unfold k0_pay1
  dsimp only
  rw [shapeCast_self]
  refine (addf_apply _ _ j).trans ?_
  rw [pay_mul, pay_bias]
  rfl

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The rows the launch reads, its weights and its bias, as the region finds them. -/
abbrev xin (c : Dev nD) : Spec.Mat 50000 135 := V c main_v3
abbrev wts (c : Dev nD) : Spec.Mat 128 135 := V c main_arg5
abbrev bias (c : Dev nD) : Spec.Row 128 := V c main_arg6

/-- Point `t` works on band `t` of the rows, on the whole weight matrix and on the whole bias; its result goes to band `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem band_le (t : Fin cfg0.N) : 5000 * t.val + 5000 ≤ 50000 := by
  have h := t.isLt; have hN : cfg0.N = 10 := N_0; omega

theorem iblk_x (c : Dev nD) (t : Fin cfg0.N) :
    (iblk0 V c 0 t : Vec Ideal S5000x135 .f32) = Spec.rowsFrom (5000 * t.val) (band_le t) (xin V c) := by
  obtain ⟨e0, e1, -, -, -, -, -⟩ := idx_facts t
  funext y
  unfold iblk0
  rw [View.read_apply]
  show V c main_v3 (((cfg0.win 0).blk t).view.emb y) = V c main_v3 _
  refine congrArg _ (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 135 + 1 * (y 1).val = (y 1).val; rw [e1]; omega

theorem iblk_w (c : Dev nD) (t : Fin cfg0.N) :
    (iblk0 V c 1 t : Vec Ideal S128x135 .f32) = wts V c := by
  obtain ⟨-, -, e2, e3, -, -, -⟩ := idx_facts t
  funext y
  unfold iblk0
  rw [View.read_apply]
  show V c main_arg5 (((cfg0.win 1).blk t).view.emb y) = V c main_arg5 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 135 + 1 * (y 1).val = (y 1).val; rw [e3]; omega

theorem iblk_b (c : Dev nD) (t : Fin cfg0.N) :
    (iblk0 V c 2 t : Vec Ideal S128 .f32) = bias V c := by
  obtain ⟨-, -, -, -, e4, -, -⟩ := idx_facts t
  funext y
  unfold iblk0
  rw [View.read_apply]
  show V c main_arg6 (((cfg0.win 2).blk t).view.emb y) = V c main_arg6 y
  refine congrArg _ (funext fun a => Fin.ext ?_)
  match a with
  | ⟨0, _⟩ => show win0_2.index t (0 : Fin 1) * 128 + 1 * (y 0).val = (y 0).val; rw [e4]; omega

/-- What point `t` writes back is band `t` of the whole layer. -/
theorem flushed_eq (c : Dev nD) (t : Fin cfg0.N) :
    (dat0 V c).flushed 3 t = ((cfg0.win 3).blk t).view.read (Elt Ideal) (Spec.affine (xin V c) (wts V c) (bias V c)) := by
  obtain ⟨-, -, -, -, -, e5, e6⟩ := idx_facts t
  show (cfg0.win 3).cut (grid0.coords t) ((dat0 V c).after 3 t) = _
  rw [after0_3]
  unfold out0_3
  rw [View.canon_unit_zero hz]
  simp only [View.ld_unit_zero (S := S5000x135) hz, View.ld_unit_zero (S := S128x135) hz, View.ld_unit_zero (S := S128) hz1]
  rw [pay, iblk_x, iblk_w, iblk_b, Spec.affine_rowsFrom]
  funext j
  rw [View.read_apply]
  show Spec.affine (xin V c) (wts V c) (bias V c) _ = Spec.affine (xin V c) (wts V c) (bias V c) (((cfg0.win 3).blk t).view.emb j)
  refine congrArg _ (funext fun a => Fin.ext ?_)
  match a with
  | ⟨0, _⟩ => show 5000 * t.val + (j 0).val = win0_3.index t (0 : Fin 2) * 5000 + 1 * (j 0).val; rw [e5]; omega
  | ⟨1, _⟩ => show (j 1).val = win0_3.index t (1 : Fin 2) * 128 + 1 * (j 1).val; rw [e6]; omega

/-- The ten bands tile the rows, so the result array ends at the whole layer. -/
theorem arr (c : Dev nD) : (dat0 V c).arrAt 3 cfg0.N = Spec.affine (V c main_v3 : Spec.Mat 50000 135) (V c main_arg5 : Spec.Mat 128 135) (V c main_arg6 : Spec.Row 128) :=
  (dat0 V c).arrAt_eq_of_cover 3 (Spec.affine (xin V c) (wts V c) (bias V c)) (fun t _ => flushed_eq V c t) fun i => by
    have hi0 : (i 0).val < 50000 := (i 0).isLt
    have hi1 : (i 1).val < 128 := (i 1).isLt
    let t : Fin cfg0.N := ⟨(i 0).val / 5000, by rw [show cfg0.N = 10 from N_0]; omega⟩
    obtain ⟨-, -, -, -, -, e5, e6⟩ := idx_facts t
    refine ⟨t, flush0_3 t, ?_⟩
    show i ∈ ((View.whole main_v4).slice (win0_3.rect t)).set
    rw [View.set_slice_whole, Rect.mem_set_unit]
    intro a
    match a with
    | ⟨0, _⟩ => show win0_3.index t (0 : Fin 2) * 5000 ≤ (i 0).val ∧ (i 0).val < win0_3.index t (0 : Fin 2) * 5000 + 5000; rw [e5]; show (i 0).val / 5000 * 5000 ≤ _ ∧ _ < (i 0).val / 5000 * 5000 + 5000; omega
    | ⟨1, _⟩ => show win0_3.index t (1 : Fin 2) * 128 ≤ (i 1).val ∧ (i 1).val < win0_3.index t (1 : Fin 2) * 128 + 128; rw [e6]; omega

end Cert.KernelIdeal.Reg0

end
-- ==== Proof.Reg1.lean ====
/-
  The edge gate: what its launch leaves in the result array. The body takes a band of 50000 rows `a`, forms
  `a · w1ᵀ + b1`, takes the maximum with zero, multiplies by the one row `w2` transposed, adds `b2` and applies the
  logistic function. Every one of these acts on each row by itself, and the 32 bands tile the 1600000 rows, so the
  array ends at the gate of the whole input.
-/
import proofs.«427005_j40638980555086_1_alg».proof.Proof.Gen.KernelIdeal.Frame
import proofs.«427005_j40638980555086_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

/-! ## The first product: a band of rows times the transposed 8 × 8 weights -/

abbrev Da := dot_S50000x8_S8x8_S50000x8_1_0_0_1_n_n

theorem a_lhs0 (i : S50000x8.Idx) (q : Da.contr.Idx) : (Da.lhsIdx i q 0).val = (i 0).val := by
  unfold DotDims.lhsIdx
  rw [dif_neg (show ¬(0 : Fin S50000x8.rank) ∈ Da.lhsBatch by decide), dif_pos (show (0 : Fin S50000x8.rank) ∈ Da.lhsNonContracting by decide)]
  rfl
theorem a_lhs1 (i : S50000x8.Idx) (q : Da.contr.Idx) : (Da.lhsIdx i q 1).val = (q ⟨0, by decide⟩).val :=
  Da.lhsIdx_val_of_single rfl i q
theorem a_rhs0 (i : S50000x8.Idx) (q : Da.contr.Idx) : (Da.rhsIdx i q 0).val = (q ⟨0, by decide⟩).val :=
  Da.rhsIdx_val_of_single rfl i q
theorem a_rhs1 (i : S50000x8.Idx) (q : Da.contr.Idx) : (Da.rhsIdx i q 1).val = (i 1).val := by
  unfold DotDims.rhsIdx
  rw [dif_neg (show ¬(1 : Fin S8x8.rank) ∈ Da.rhsBatch by decide), dif_pos (show (1 : Fin S8x8.rank) ∈ Da.rhsNonContracting by decide)]
  rfl

/-- Entry (r, c) of the product is the sum over k of x[r, k] · w[c, k]. -/
theorem mulA (x : FVec Ideal S50000x8 .f32) (w : FVec Ideal S8x8 .f32) :
    matmul Da none x (transpose S8x8 [1, 0] w transposes_S8x8_p1_0_S8x8) (constant (F := Ideal) S50000x8 .f32 0x00000000#32)
      = Spec.mulT x w := by
  funext j
  refine (Ideal.matmul_constant_zero_apply Da none x _ j).trans ?_
  rw [← Equiv.sum_comp (contrEquiv1 Da 8 rfl rfl).symm]
  unfold Spec.mulT
  refine Finset.sum_congr rfl fun k _ => ?_
  have hk := contrEquiv1_symm_val Da 8 rfl rfl k
  have el : Da.lhsIdx j ((contrEquiv1 Da 8 rfl rfl).symm k) = ix2 (j 0) k := funext fun a => Fin.ext (by
    match a with
    | ⟨0, _⟩ => exact a_lhs0 _ _
    | ⟨1, _⟩ => exact (a_lhs1 _ _).trans hk)
  rw [el]
  refine congrArg (x (ix2 (j 0) k) * ·) ?_
  refine transpose_apply [1, 0] w transposes_S8x8_p1_0_S8x8 _ (ix2 (j 1) k) (fun b => ?_)
  match b with
  | ⟨0, _⟩ => exact ((a_rhs0 _ _).trans hk).symm
  | ⟨1, _⟩ => exact (a_rhs1 _ _).symm

/-! ## The second product: the rows times the one row of weights, transposed to a column -/

abbrev Db := dot_S50000x8_S8x1_S50000x1_1_0_0_1_n_n

theorem b_lhs0 (i : S50000x1.Idx) (q : Db.contr.Idx) : (Db.lhsIdx i q 0).val = (i 0).val := by
  unfold DotDims.lhsIdx
  rw [dif_neg (show ¬(0 : Fin S50000x8.rank) ∈ Db.lhsBatch by decide), dif_pos (show (0 : Fin S50000x8.rank) ∈ Db.lhsNonContracting by decide)]
  rfl
theorem b_lhs1 (i : S50000x1.Idx) (q : Db.contr.Idx) : (Db.lhsIdx i q 1).val = (q ⟨0, by decide⟩).val :=
  Db.lhsIdx_val_of_single rfl i q
theorem b_rhs0 (i : S50000x1.Idx) (q : Db.contr.Idx) : (Db.rhsIdx i q 0).val = (q ⟨0, by decide⟩).val :=
  Db.rhsIdx_val_of_single rfl i q
theorem b_rhs1 (i : S50000x1.Idx) (q : Db.contr.Idx) : (Db.rhsIdx i q 1).val = (i 1).val := by
  unfold DotDims.rhsIdx
  rw [dif_neg (show ¬(1 : Fin S8x1.rank) ∈ Db.rhsBatch by decide), dif_pos (show (1 : Fin S8x1.rank) ∈ Db.rhsNonContracting by decide)]
  rfl

/-- Entry (r, 0) of the product is the sum over k of y[r, k] · w[0, k]. -/
theorem mulB (y : FVec Ideal S50000x8 .f32) (w : FVec Ideal S1x8 .f32) :
    matmul Db none y (transpose S8x1 [1, 0] w transposes_S1x8_p1_0_S8x1) (constant (F := Ideal) S50000x1 .f32 0x00000000#32)
      = Spec.mulT y w := by
  funext j
  refine (Ideal.matmul_constant_zero_apply Db none y _ j).trans ?_
  rw [← Equiv.sum_comp (contrEquiv1 Db 8 rfl rfl).symm]
  unfold Spec.mulT
  refine Finset.sum_congr rfl fun k _ => ?_
  have hk := contrEquiv1_symm_val Db 8 rfl rfl k
  have el : Db.lhsIdx j ((contrEquiv1 Db 8 rfl rfl).symm k) = ix2 (j 0) k := funext fun a => Fin.ext (by
    match a with
    | ⟨0, _⟩ => exact b_lhs0 _ _
    | ⟨1, _⟩ => exact (b_lhs1 _ _).trans hk)
  rw [el]
  refine congrArg (y (ix2 (j 0) k) * ·) ?_
  refine transpose_apply [1, 0] w transposes_S1x8_p1_0_S8x1 _ (ix2 (j 1) k) (fun b => ?_)
  match b with
  | ⟨0, _⟩ => exact ((b_rhs0 _ _).trans hk).symm
  | ⟨1, _⟩ => exact (b_rhs1 _ _).symm

/-! ## The two biases, each spread over the rows -/

/-- The 8 biases viewed as one row and repeated on every row: entry (r, c) is b[c]. -/
theorem biasA (b : FVec Ideal S8 .f32) :
    broadcastTo S50000x8 (shapeCast S1x8 b shapeCasts_S8_S1x8) broadcasts_S1x8_S50000x8 = fun i => b (ix1 (i 1)) := by
  funext i
  refine (broadcastTo_apply _ broadcasts_S1x8_S50000x8 i (ix2 (0 : Fin 1) (i 1)) fun a => ?_).trans ?_
  · match a with
    | ⟨0, _⟩ => rfl
    | ⟨1, _⟩ => rfl
  · refine shapeCast_apply b shapeCasts_S8_S1x8 _ (ix1 (i 1)) ?_
    rw [Shape.rowMajor_val_two, Shape.rowMajor_val_one]
    show (i 1).val = 0 * 8 + (i 1).val
    omega

/-- The one bias viewed as a 1 × 1 array and repeated on every row: entry (r, 0) is b[0]. -/
theorem biasB (b : FVec Ideal S1 .f32) :
    broadcastTo S50000x1 (shapeCast S1x1 b shapeCasts_S1_S1x1) broadcasts_S1x1_S50000x1 = fun i => b (ix1 (i 1)) := by
  funext i
  refine (broadcastTo_apply _ broadcasts_S1x1_S50000x1 i (ix2 (0 : Fin 1) (i 1)) fun a => ?_).trans ?_
  · have h1 : (i 1).val = 0 := by have := (i 1).isLt; simp at this; omega
    match a with
    | ⟨0, _⟩ => rfl
    | ⟨1, _⟩ => show (i 1).val = 0; exact h1
  · refine shapeCast_apply b shapeCasts_S1_S1x1 _ (ix1 (i 1)) ?_
    rw [Shape.rowMajor_val_two, Shape.rowMajor_val_one]
    show (i 1).val = 0 * 1 + (i 1).val
    omega

/-! ## The maximum with the zero splat -/

/-- The zero word is the extended real 0, so the maximum with its splat is the maximum with zero, entry by entry. -/
theorem reluA (y : FVec Ideal S50000x8 .f32) :
    maximumf y (broadcast S50000x8 (FloatOps.ofBits (F := Ideal) FTy.f32 0x00000000#32)) = Spec.relu y := by
  funext i
  show max (y i) (Ideal.ofBits .f32 0x00000000#32) = max (y i) 0
  rw [Ideal.ofBits_zero_f32]

/-! ## The body's stored value -/

/-- The body's one stored value is the gate of the band's rows. -/
theorem pay (x0 : Vec Ideal S50000x8 .f32) (x1 : Vec Ideal S8x8 .f32) (x2 : Vec Ideal S8 .f32) (x3 : Vec Ideal S1x8 .f32) (x4 : Vec Ideal S1 .f32) :
    k1_pay1 (F := Ideal) x0 x1 x2 x3 x4 = Spec.gate x0 x1 x2 x3 x4 := by
  unfold k1_pay1
  dsimp only
  rw [mulA x0 x1, biasA x2, reluA, mulB _ x3, biasB x4]
  rfl

/-! ## From the bands to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The rows the launch reads, its two weight arrays and its two biases, as the region finds them. -/
abbrev ain (c : Dev nD) : Spec.Mat 1600000 8 := V c main_arg4
abbrev w1 (c : Dev nD) : Spec.Mat 8 8 := V c main_arg8
abbrev b1 (c : Dev nD) : Spec.Row 8 := V c main_arg9
abbrev w2 (c : Dev nD) : Spec.Mat 1 8 := V c main_arg10
abbrev b2 (c : Dev nD) : Spec.Row 1 := V c main_arg11

/-- The gate of the whole input. -/
abbrev G (c : Dev nD) : Spec.Mat 1600000 1 := Spec.gate (ain V c) (w1 V c) (b1 V c) (w2 V c) (b2 V c)

/-- Point `t` works on band `t` of the rows and on the whole of the other four arrays; its result goes to band `t`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem band_le (t : Fin cfg1.N) : 50000 * t.val + 50000 ≤ 1600000 := by
  have h := t.isLt; have hN : cfg1.N = 32 := N_1; omega

theorem iblk_a (c : Dev nD) (t : Fin cfg1.N) :
    (iblk1 V c 0 t : Vec Ideal S50000x8 .f32) = Spec.rowsFrom (50000 * t.val) (band_le t) (ain V c) := by
  obtain ⟨e0, e1, -, -, -, -, -, -, -, -⟩ := idx_facts t
  funext y
  unfold iblk1
  rw [View.read_apply]
  show V c main_arg4 (((cfg1.win 0).blk t).view.emb y) = V c main_arg4 _
  refine congrArg _ (funext fun a => Fin.ext ?_)
  match a with
  | ⟨0, _⟩ => show win1_0.index t (0 : Fin 2) * 50000 + 1 * (y 0).val = 50000 * t.val + (y 0).val; rw [e0]; omega
  | ⟨1, _⟩ => show win1_0.index t (1 : Fin 2) * 8 + 1 * (y 1).val = (y 1).val; rw [e1]; omega

theorem iblk_w1 (c : Dev nD) (t : Fin cfg1.N) :
    (iblk1 V c 1 t : Vec Ideal S8x8 .f32) = w1 V c := by
  obtain ⟨-, -, e0, e1, -, -, -, -, -, -⟩ := idx_facts t
  funext y
  unfold iblk1
  rw [View.read_apply]
  show V c main_arg8 (((cfg1.win 1).blk t).view.emb y) = V c main_arg8 y
  refine congrArg _ (funext fun a => Fin.ext ?_)
  match a with
  | ⟨0, _⟩ => show win1_1.index t (0 : Fin 2) * 8 + 1 * (y 0).val = (y 0).val; rw [e0]; omega
  | ⟨1, _⟩ => show win1_1.index t (1 : Fin 2) * 8 + 1 * (y 1).val = (y 1).val; rw [e1]; omega

theorem iblk_b1 (c : Dev nD) (t : Fin cfg1.N) :
    (iblk1 V c 2 t : Vec Ideal S8 .f32) = b1 V c := by
  obtain ⟨-, -, -, -, e0, -, -, -, -, -⟩ := idx_facts t
  funext y
  unfold iblk1
  rw [View.read_apply]
  show V c main_arg9 (((cfg1.win 2).blk t).view.emb y) = V c main_arg9 y
  refine congrArg _ (funext fun a => Fin.ext ?_)
  match a with
  | ⟨0, _⟩ => show win1_2.index t (0 : Fin 1) * 8 + 1 * (y 0).val = (y 0).val; rw [e0]; omega

theorem iblk_w2 (c : Dev nD) (t : Fin cfg1.N) :
    (iblk1 V c 3 t : Vec Ideal S1x8 .f32) = w2 V c := by
  obtain ⟨-, -, -, -, -, e0, e1, -, -, -⟩ := idx_facts t
  funext y
  unfold iblk1
  rw [View.read_apply]
  show V c main_arg10 (((cfg1.win 3).blk t).view.emb y) = V c main_arg10 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 8 + 1 * (y 1).val = (y 1).val; rw [e1]; omega

theorem iblk_b2 (c : Dev nD) (t : Fin cfg1.N) :
    (iblk1 V c 4 t : Vec Ideal S1 .f32) = b2 V c := by
  obtain ⟨-, -, -, -, -, -, -, e0, -, -⟩ := idx_facts t
  funext y
  unfold iblk1
  rw [View.read_apply]
  show V c main_arg11 (((cfg1.win 4).blk t).view.emb y) = V c main_arg11 y
  refine congrArg _ (funext fun a => Fin.ext ?_)
  match a with
  | ⟨0, _⟩ => show win1_4.index t (0 : Fin 1) * 1 + 1 * (y 0).val = (y 0).val; rw [e0]; omega

/-- What point `t` writes back is band `t` of the gate of the whole input: the gate acts on each row by itself. -/
theorem flushed_eq (c : Dev nD) (t : Fin cfg1.N) :
    (dat1 V c).flushed 5 t = ((cfg1.win 5).blk t).view.read (Elt Ideal) (G V c) := by
  obtain ⟨-, -, -, -, -, -, -, -, e4, e5⟩ := idx_facts t
  show (cfg1.win 5).cut (grid1.coords t) ((dat1 V c).after 5 t) = _
  rw [after1_5]
  unfold out1_5
  rw [View.canon_unit_zero hz]
  simp only [View.ld_unit_zero (S := S50000x8) hz, View.ld_unit_zero (S := S8x8) hz, View.ld_unit_zero (S := S8) hz1,
    View.ld_unit_zero (S := S1x8) hz, View.ld_unit_zero (S := S1) hz1]
  rw [pay, iblk_a, iblk_w1, iblk_b1, iblk_w2, iblk_b2, Spec.gate_rowsFrom]
  funext j
  rw [View.read_apply]
  show G V c _ = G V c (((cfg1.win 5).blk t).view.emb j)
  refine congrArg _ (funext fun a => Fin.ext ?_)
  match a with
  | ⟨0, _⟩ => show 50000 * t.val + (j 0).val = win1_5.index t (0 : Fin 2) * 50000 + 1 * (j 0).val; rw [e4]; omega
  | ⟨1, _⟩ => show (j 1).val = win1_5.index t (1 : Fin 2) * 1 + 1 * (j 1).val; rw [e5]; omega

/-- The 32 bands tile the rows, so the result array ends at the gate of the whole input. -/
theorem arr (c : Dev nD) : (dat1 V c).arrAt 5 cfg1.N = Spec.gate (V c main_arg4 : Spec.Mat 1600000 8) (V c main_arg8 : Spec.Mat 8 8) (V c main_arg9 : Spec.Row 8) (V c main_arg10 : Spec.Mat 1 8) (V c main_arg11 : Spec.Row 1) :=
  (dat1 V c).arrAt_eq_of_cover 5 (G V c) (fun t _ => flushed_eq V c t) fun i => by
    have hi0 : (i 0).val < 1600000 := (i 0).isLt
    have hi1 : (i 1).val < 1 := (i 1).isLt
    let t : Fin cfg1.N := ⟨(i 0).val / 50000, by rw [show cfg1.N = 32 from N_1]; omega⟩
    obtain ⟨-, -, -, -, -, -, -, -, e4, e5⟩ := idx_facts t
    refine ⟨t, flush1_5 t, ?_⟩
    show i ∈ ((View.whole main_v5).slice (win1_5.rect t)).set
    rw [View.set_slice_whole, Rect.mem_set_unit]
    intro a
    match a with
    | ⟨0, _⟩ => show win1_5.index t (0 : Fin 2) * 50000 ≤ (i 0).val ∧ (i 0).val < win1_5.index t (0 : Fin 2) * 50000 + 50000; rw [e4]; show (i 0).val / 50000 * 50000 ≤ _ ∧ _ < (i 0).val / 50000 * 50000 + 50000; omega
    | ⟨1, _⟩ => show win1_5.index t (1 : Fin 2) * 1 ≤ (i 1).val ∧ (i 1).val < win1_5.index t (1 : Fin 2) * 1 + 1; rw [e5]; omega

end Cert.KernelIdeal.Reg1

end
-- ==== Proof.Reg2.lean ====
/-
  The projection before the first message pass (the convolution's linear map, no bias): what its launch leaves in
  the result array. The body multiplies a band of 5000 rows by the transposed weights; the ten bands tile the
  50000 rows, so the array ends at the whole product `x · wᵀ`.
-/
import proofs.«427005_j40638980555086_1_alg».proof.Proof.Gen.KernelIdeal.Frame
import proofs.«427005_j40638980555086_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen

abbrev D2 := dot_S5000x128_S128x128_S5000x128_1_0_0_1_n_n

theorem lhs0 (i : S5000x128.Idx) (q : D2.contr.Idx) : (D2.lhsIdx i q 0).val = (i 0).val := by
  unfold DotDims.lhsIdx
  rw [dif_neg (show ¬(0 : Fin S5000x128.rank) ∈ D2.lhsBatch by decide), dif_pos (show (0 : Fin S5000x128.rank) ∈ D2.lhsNonContracting by decide)]
  rfl
theorem lhs1 (i : S5000x128.Idx) (q : D2.contr.Idx) : (D2.lhsIdx i q 1).val = (q ⟨0, by decide⟩).val :=
  D2.lhsIdx_val_of_single rfl i q
theorem rhs0 (i : S5000x128.Idx) (q : D2.contr.Idx) : (D2.rhsIdx i q 0).val = (q ⟨0, by decide⟩).val :=
  D2.rhsIdx_val_of_single rfl i q
theorem rhs1 (i : S5000x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- The body's one stored value is the band's rows times the transposed weights. -/
theorem pay (x0 : Vec Ideal S5000x128 .f32) (x1 : Vec Ideal S128x128 .f32) :
    k2_pay1 (F := Ideal) x0 x1 = Spec.mulT x0 x1 := by
  funext j
  unfold k2_pay1
  dsimp only
  rw [shapeCast_self]
  refine (Ideal.matmul_constant_zero_apply D2 none x0 _ j).trans ?_
  rw [← Equiv.sum_comp (contrEquiv1 D2 128 rfl rfl).symm]
  unfold Spec.mulT
  refine Finset.sum_congr rfl fun k _ => ?_
  have hk := contrEquiv1_symm_val D2 128 rfl rfl k
  have el : D2.lhsIdx j ((contrEquiv1 D2 128 rfl rfl).symm k) = ix2 (j 0) k := funext fun a => Fin.ext (by
    match a with
    | ⟨0, _⟩ => exact lhs0 _ _
    | ⟨1, _⟩ => exact (lhs1 _ _).trans hk)
  rw [el]
  refine congrArg (x0 (ix2 (j 0) k) * ·) ?_
  refine transpose_apply [1, 0] x1 transposes_S128x128_p1_0_S128x128 _ (ix2 (j 1) k) (fun b => ?_)
  match b with
  | ⟨0, _⟩ => exact ((rhs0 _ _).trans hk).symm
  | ⟨1, _⟩ => exact (rhs1 _ _).symm

variable (V : (c : Dev nD) → (b : Ref sig .tc) → Buf (Elt Ideal) ((c : Thread nD τ).loc b))

theorem hz : (![0, 0] : Fin 2 → Nat) = fun _ => 0 := funext fun a => by fin_cases a <;> rfl

/-- The rows the launch reads, and its weights, as the region finds them. -/
abbrev xin (c : Dev nD) : Spec.Mat 50000 128 := V c main_v4
abbrev wts (c : Dev nD) : Spec.Mat 128 128 := V c main_arg7

/-- Point `t` works on band `t` of the rows and on the whole weight matrix; its result goes to band `t`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem band_le (t : Fin cfg2.N) : 5000 * t.val + 5000 ≤ 50000 := by
  have h := t.isLt; have hN : cfg2.N = 10 := N_2; omega

theorem iblk_x (c : Dev nD) (t : Fin cfg2.N) :
    (iblk2 V c 0 t : Vec Ideal S5000x128 .f32) = Spec.rowsFrom (5000 * t.val) (band_le t) (xin V c) := by
  obtain ⟨e0, e1, -, -, -, -⟩ := idx_facts t
  funext y
  unfold iblk2
  rw [View.read_apply]
  show V c main_v4 (((cfg2.win 0).blk t).view.emb y) = V c main_v4 _
  refine congrArg _ (funext fun a => Fin.ext ?_)
  match a with
  | ⟨0, _⟩ => show win2_0.index t (0 : Fin 2) * 5000 + 1 * (y 0).val = 5000 * t.val + (y 0).val; rw [e0]; omega
  | ⟨1, _⟩ => show win2_0.index t (1 : Fin 2) * 128 + 1 * (y 1).val = (y 1).val; rw [e1]; omega

theorem iblk_w (c : Dev nD) (t : Fin cfg2.N) :
    (iblk2 V c 1 t : Vec Ideal S128x128 .f32) = wts V c := by
  obtain ⟨-, -, e2, e3, -, -⟩ := idx_facts t
  funext y
  unfold iblk2
  rw [View.read_apply]
  show V c main_arg7 (((cfg2.win 1).blk t).view.emb y) = V c main_arg7 y
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point `t` writes back is band `t` of the whole product. -/
theorem flushed_eq (c : Dev nD) (t : Fin cfg2.N) :
    (dat2 V c).flushed 2 t = ((cfg2.win 2).blk t).view.read (Elt Ideal) (Spec.mulT (xin V c) (wts V c)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay, iblk_x, iblk_w, Spec.mulT_rowsFrom]
  funext j
  rw [View.read_apply]
  show Spec.mulT (xin V c) (wts V c) _ = Spec.mulT (xin V c) (wts V c) (((cfg2.win 2).blk t).view.emb j)
  refine congrArg _ (funext fun a => Fin.ext ?_)
  match a with
  | ⟨0, _⟩ => show 5000 * t.val + (j 0).val = win2_2.index t (0 : Fin 2) * 5000 + 1 * (j 0).val; rw [e4]; omega
  | ⟨1, _⟩ => show (j 1).val = win2_2.index t (1 : Fin 2) * 128 + 1 * (j 1).val; rw [e5]; omega

/-- The ten bands tile the rows, so the result array ends at the whole product. -/
theorem arr (c : Dev nD) : (dat2 V c).arrAt 2 cfg2.N = Spec.mulT (xin V c) (wts V c) :=
  (dat2 V c).arrAt_eq_of_cover 2 (Spec.mulT (xin V c) (wts V c)) (fun t _ => flushed_eq V c t) fun i => by
    have hi0 : (i 0).val < 50000 := (i 0).isLt
    have hi1 : (i 1).val < 128 := (i 1).isLt
    let t : Fin cfg2.N := ⟨(i 0).val / 5000, by rw [show cfg2.N = 10 from N_2]; omega⟩
    obtain ⟨-, -, -, -, e4, e5⟩ := idx_facts t
    refine ⟨t, flush2_2 t, ?_⟩
    show i ∈ ((View.whole main_v36).slice (win2_2.rect t)).set
    rw [View.set_slice_whole, Rect.mem_set_unit]
    intro a
    match a with
    | ⟨0, _⟩ => show win2_2.index t (0 : Fin 2) * 5000 ≤ (i 0).val ∧ (i 0).val < win2_2.index t (0 : Fin 2) * 5000 + 5000; rw [e4]; show (i 0).val / 5000 * 5000 ≤ _ ∧ _ < (i 0).val / 5000 * 5000 + 5000; omega
    | ⟨1, _⟩ => show win2_2.index t (1 : Fin 2) * 128 ≤ (i 1).val ∧ (i 1).val < win2_2.index t (1 : Fin 2) * 128 + 128; rw [e5]; omega

end Cert.KernelIdeal.Reg2

end
-- ==== Proof.Reg4.lean ====
/-
  The output head (an affine layer, three affine layers each followed by `relu`, a last product without bias): what
  its launch leaves in the result array. The body works on a band of 5000 rows: it multiplies the band by the transposed
  first weights and adds their bias, three times multiplies by one transposed matrix of the stack of weights, adds that
  layer's row of the biases and takes the maximum with zero, and multiplies by the transposed last weights. Every layer
  acts on each row by itself and the ten bands tile the 50000 rows, so the array ends at the head of all the rows.
-/
import proofs.«427005_j40638980555086_1_alg».proof.Proof.Gen.KernelIdeal.Frame
import proofs.«427005_j40638980555086_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen

abbrev DA := dot_S5000x128_S128x256_S5000x256_1_0_0_1_n_n
abbrev DB := dot_S5000x256_S256x256_S5000x256_1_0_0_1_n_n
abbrev DC := dot_S5000x256_S256x1_S5000x1_1_0_0_1_n_n

theorem lhsA0 (i : S5000x256.Idx) (q : DA.contr.Idx) : (DA.lhsIdx i q 0).val = (i 0).val := by
  unfold DotDims.lhsIdx
  rw [dif_neg (show ¬(0 : Fin S5000x128.rank) ∈ DA.lhsBatch by decide), dif_pos (show (0 : Fin S5000x128.rank) ∈ DA.lhsNonContracting by decide)]
  rfl
theorem lhsA1 (i : S5000x256.Idx) (q : DA.contr.Idx) : (DA.lhsIdx i q 1).val = (q ⟨0, by decide⟩).val :=
  DA.lhsIdx_val_of_single rfl i q
theorem rhsA0 (i : S5000x256.Idx) (q : DA.contr.Idx) : (DA.rhsIdx i q 0).val = (q ⟨0, by decide⟩).val :=
  DA.rhsIdx_val_of_single rfl i q
theorem rhsA1 (i : S5000x256.Idx) (q : DA.contr.Idx) : (DA.rhsIdx i q 1).val = (i 1).val := by
  unfold DotDims.rhsIdx
  rw [dif_neg (show ¬(1 : Fin S128x256.rank) ∈ DA.rhsBatch by decide), dif_pos (show (1 : Fin S128x256.rank) ∈ DA.rhsNonContracting by decide)]
  rfl

/-- The first layer's product: entry (r, c) of the band times the transposed 256 × 128 weights is the sum over k of x[r, k] · w[c, k]. -/
theorem mmA (x : FVec Ideal S5000x128 .f32) (w : FVec Ideal S256x128 .f32) :
    matmul DA none x (transpose S128x256 [1, 0] w transposes_S256x128_p1_0_S128x256) (constant (F := Ideal) S5000x256 .f32 0x00000000#32)
      = Spec.mulT x w := by
  funext j
  refine (Ideal.matmul_constant_zero_apply DA none x _ j).trans ?_
  rw [← Equiv.sum_comp (contrEquiv1 DA 128 rfl rfl).symm]
  unfold Spec.mulT
  refine Finset.sum_congr rfl fun k _ => ?_
  have hk := contrEquiv1_symm_val DA 128 rfl rfl k
  have el : DA.lhsIdx j ((contrEquiv1 DA 128 rfl rfl).symm k) = ix2 (j 0) k := funext fun a => Fin.ext (by
    match a with
    | ⟨0, _⟩ => exact lhsA0 _ _
    | ⟨1, _⟩ => exact (lhsA1 _ _).trans hk)
  rw [el]
  refine congrArg (x (ix2 (j 0) k) * ·) ?_
  refine transpose_apply [1, 0] w transposes_S256x128_p1_0_S128x256 _ (ix2 (j 1) k) (fun b => ?_)
  match b with
  | ⟨0, _⟩ => exact ((rhsA0 _ _).trans hk).symm
  | ⟨1, _⟩ => exact (rhsA1 _ _).symm

theorem lhsB0 (i : S5000x256.Idx) (q : DB.contr.Idx) : (DB.lhsIdx i q 0).val = (i 0).val := by
  unfold DotDims.lhsIdx
  rw [dif_neg (show ¬(0 : Fin S5000x256.rank) ∈ DB.lhsBatch by decide), dif_pos (show (0 : Fin S5000x256.rank) ∈ DB.lhsNonContracting by decide)]
  rfl
theorem lhsB1 (i : S5000x256.Idx) (q : DB.contr.Idx) : (DB.lhsIdx i q 1).val = (q ⟨0, by decide⟩).val :=
  DB.lhsIdx_val_of_single rfl i q
theorem rhsB0 (i : S5000x256.Idx) (q : DB.contr.Idx) : (DB.rhsIdx i q 0).val = (q ⟨0, by decide⟩).val :=
  DB.rhsIdx_val_of_single rfl i q
theorem rhsB1 (i : S5000x256.Idx) (q : DB.contr.Idx) : (DB.rhsIdx i q 1).val = (i 1).val := by
  unfold DotDims.rhsIdx
  rw [dif_neg (show ¬(1 : Fin S256x256.rank) ∈ DB.rhsBatch by decide), dif_pos (show (1 : Fin S256x256.rank) ∈ DB.rhsNonContracting by decide)]
  rfl

/-- A hidden layer's product, against transposed 256 × 256 weights. -/
theorem mmB (x : FVec Ideal S5000x256 .f32) (w : FVec Ideal S256x256 .f32) :
    matmul DB none x (transpose S256x256 [1, 0] w transposes_S256x256_p1_0_S256x256) (constant (F := Ideal) S5000x256 .f32 0x00000000#32)
      = Spec.mulT x w := by
  funext j
  refine (Ideal.matmul_constant_zero_apply DB none x _ j).trans ?_
  rw [← Equiv.sum_comp (contrEquiv1 DB 256 rfl rfl).symm]
  unfold Spec.mulT
  refine Finset.sum_congr rfl fun k _ => ?_
  have hk := contrEquiv1_symm_val DB 256 rfl rfl k
  have el : DB.lhsIdx j ((contrEquiv1 DB 256 rfl rfl).symm k) = ix2 (j 0) k := funext fun a => Fin.ext (by
    match a with
    | ⟨0, _⟩ => exact lhsB0 _ _
    | ⟨1, _⟩ => exact (lhsB1 _ _).trans hk)
  rw [el]
  refine congrArg (x (ix2 (j 0) k) * ·) ?_
  refine transpose_apply [1, 0] w transposes_S256x256_p1_0_S256x256 _ (ix2 (j 1) k) (fun b => ?_)
  match b with
  | ⟨0, _⟩ => exact ((rhsB0 _ _).trans hk).symm
  | ⟨1, _⟩ => exact (rhsB1 _ _).symm

theorem lhsC0 (i : S5000x1.Idx) (q : DC.contr.Idx) : (DC.lhsIdx i q 0).val = (i 0).val := by
  unfold DotDims.lhsIdx
  rw [dif_neg (show ¬(0 : Fin S5000x256.rank) ∈ DC.lhsBatch by decide), dif_pos (show (0 : Fin S5000x256.rank) ∈ DC.lhsNonContracting by decide)]
  rfl
theorem lhsC1 (i : S5000x1.Idx) (q : DC.contr.Idx) : (DC.lhsIdx i q 1).val = (q ⟨0, by decide⟩).val :=
  DC.lhsIdx_val_of_single rfl i q
theorem rhsC0 (i : S5000x1.Idx) (q : DC.contr.Idx) : (DC.rhsIdx i q 0).val = (q ⟨0, by decide⟩).val :=
  DC.rhsIdx_val_of_single rfl i q
theorem rhsC1 (i : S5000x1.Idx) (q : DC.contr.Idx) : (DC.rhsIdx i q 1).val = (i 1).val := by
  unfold DotDims.rhsIdx
  rw [dif_neg (show ¬(1 : Fin S256x1.rank) ∈ DC.rhsBatch by decide), dif_pos (show (1 : Fin S256x1.rank) ∈ DC.rhsNonContracting by decide)]
  rfl

/-- The last product, against the transposed 1 × 256 weights: one column. -/
theorem mmC (x : FVec Ideal S5000x256 .f32) (w : FVec Ideal S1x256 .f32) :
    matmul DC none x (transpose S256x1 [1, 0] w transposes_S1x256_p1_0_S256x1) (constant (F := Ideal) S5000x1 .f32 0x00000000#32)
      = Spec.mulT x w := by
  funext j
  refine (Ideal.matmul_constant_zero_apply DC none x _ j).trans ?_
  rw [← Equiv.sum_comp (contrEquiv1 DC 256 rfl rfl).symm]
  unfold Spec.mulT
  refine Finset.sum_congr rfl fun k _ => ?_
  have hk := contrEquiv1_symm_val DC 256 rfl rfl k
  have el : DC.lhsIdx j ((contrEquiv1 DC 256 rfl rfl).symm k) = ix2 (j 0) k := funext fun a => Fin.ext (by
    match a with
    | ⟨0, _⟩ => exact lhsC0 _ _
    | ⟨1, _⟩ => exact (lhsC1 _ _).trans hk)
  rw [el]
  refine congrArg (x (ix2 (j 0) k) * ·) ?_
  refine transpose_apply [1, 0] w transposes_S1x256_p1_0_S256x1 _ (ix2 (j 1) k) (fun b => ?_)
  match b with
  | ⟨0, _⟩ => exact ((rhsC0 _ _).trans hk).symm
  | ⟨1, _⟩ => exact (rhsC1 _ _).symm

/-- A bias vector, viewed as a one-row matrix and repeated down the rows, reads the bias at the column. -/
theorem bcast (b : FVec Ideal S256 .f32) :
    broadcastTo S5000x256 (shapeCast S1x256 b shapeCasts_S256_S1x256) broadcasts_S1x256_S5000x256 = fun i => b (ix1 (i 1)) := by
  funext i
  refine (broadcastTo_apply _ broadcasts_S1x256_S5000x256 i (ix2 ⟨0, Nat.one_pos⟩ (i 1)) (fun a => ?_)).trans ?_
  · match a with
    | ⟨0, _⟩ => rfl
    | ⟨1, _⟩ => rfl
  · refine (shapeCast_addUnit_apply ![256] b shapeCasts_S256_S1x256 _).trans ?_
    refine congrArg b (funext fun a => ?_)
    match a with
    | ⟨0, _⟩ => rfl

/-- The product plus the repeated bias is the affine layer. -/
theorem affine_eq (y : FVec Ideal S5000x256 .f32) (b : FVec Ideal S256 .f32) :
    addf y (broadcastTo S5000x256 (shapeCast S1x256 b shapeCasts_S256_S1x256) broadcasts_S1x256_S5000x256) = Spec.addRow y b := by
  rw [bcast]; rfl

/-- The maximum with the zero splat is `relu`. -/
theorem relu_eq (y : FVec Ideal S5000x256 .f32) :
    maximumf y (broadcast S5000x256 (Scalar.ofBits (F := Ideal) .f32 0x00000000#32)) = Spec.relu y := by
  funext i
  show max (y i) (Ideal.ofBits .f32 0x00000000#32) = max (y i) 0
  rw [Ideal.ofBits_zero_f32]

/-- Matrix `o` of the stack of weights: the load through the unit-stride rectangle of one matrix at offset `o`
    along the first axis, its unit axis dropped, reads the stack at (o, r, c). -/
theorem plane_ld (o : Nat) (ho : o < 3) (x3 : Vec Ideal S3x256x256 .f32)
    (inb : ∀ a, (![o, 0, 0] : Fin 3 → Nat) a + S1x256x256.size a ≤ S3x256x256.size a) :
    shapeCast S256x256 (View.ld x3 (Rect.unit (s := S3x256x256) ![o, 0, 0] S1x256x256.size inb)) shapeCasts_S1x256x256_S256x256
      = Spec.plane ⟨o, ho⟩ x3 := by
  funext j
  refine (shapeCast_dropUnit_apply ![256, 256] _ shapeCasts_S1x256x256_S256x256 j).trans ?_
  show x3 _ = x3 _
  refine congrArg x3 (funext fun a => Fin.ext ?_)
  match a with
  | ⟨0, _⟩ => show o + 1 * 0 = o; omega
  | ⟨1, _⟩ => show 0 + 1 * (j 0).val = (j 0).val; omega
  | ⟨2, _⟩ => show 0 + 1 * (j 1).val = (j 1).val; omega

/-- Row `o` of the biases, likewise. -/
theorem row_ld (o : Nat) (ho : o < 3) (x4 : Vec Ideal S3x256 .f32)
    (inb : ∀ a, (![o, 0] : Fin 2 → Nat) a + S1x256.size a ≤ S3x256.size a) :
    shapeCast S256 (View.ld x4 (Rect.unit (s := S3x256) ![o, 0] S1x256.size inb)) shapeCasts_S1x256_S256
      = Spec.rowOf ⟨o, ho⟩ x4 := by
  funext j
  refine (shapeCast_dropUnit_apply ![256] _ shapeCasts_S1x256_S256 j).trans ?_
  show x4 _ = x4 _
  refine congrArg x4 (funext fun a => Fin.ext ?_)
  match a with
  | ⟨0, _⟩ => show o + 1 * 0 = o; omega
  | ⟨1, _⟩ => show 0 + 1 * (j 0).val = (j 0).val; omega

/-- The body's hidden value after the first layer and two of the three hidden layers, from the loaded band, the first
    layer's weights and bias, and the two loaded weight matrices and bias rows (each still with its unit axis). -/
theorem pay2 (x0 : Vec Ideal S5000x128 .f32) (x1 : Vec Ideal S256x128 .f32) (x2 : Vec Ideal S256 .f32)
    (v9 : Vec Ideal S1x256x256 .f32) (v11 : Vec Ideal S1x256 .f32) (v20 : Vec Ideal S1x256x256 .f32) (v22 : Vec Ideal S1x256 .f32) :
    k4_pay2 (F := Ideal) x0 x1 x2 v9 v11 v20 v22
      = Spec.relu (Spec.affine (Spec.relu (Spec.affine (Spec.affine x0 x1 x2)
          (shapeCast S256x256 v9 shapeCasts_S1x256x256_S256x256) (shapeCast S256 v11 shapeCasts_S1x256_S256)))
          (shapeCast S256x256 v20 shapeCasts_S1x256x256_S256x256) (shapeCast S256 v22 shapeCasts_S1x256_S256)) := by
  unfold k4_pay2
  dsimp only
  rw [shapeCast_self, mmB, mmB, mmA]
  simp only [affine_eq, relu_eq]
  rfl

/-- The stored value: the third hidden layer, then the product with the last weights. -/
theorem pay1 (v30 : FVec Ideal S5000x256 .f32) (v32 : FVec Ideal S256x256 .f32) (v33 : Vec Ideal S1x256 .f32) (v42 : Vec Ideal S1x256 .f32) :
    k4_pay1 (F := Ideal) v30 v32 v33 v42
      = Spec.mulT (Spec.relu (Spec.affine v30 v32 (shapeCast S256 v33 shapeCasts_S1x256_S256))) v42 := by
  unfold k4_pay1
  dsimp only
  rw [mmC, mmB]
  simp only [affine_eq, relu_eq]
  rfl

/-- The body's one stored value is the output head of the loaded band: the whole-buffer loads read the blocks, the three
    slices of the weight stack and of the biases are its planes and rows. -/
theorem pay (x0 : Vec Ideal S5000x128 .f32) (x1 : Vec Ideal S256x128 .f32) (x2 : Vec Ideal S256 .f32)
    (x3 : Vec Ideal S3x256x256 .f32) (x4 : Vec Ideal S3x256 .f32) (x5 : Vec Ideal S1x256 .f32) :
    k4_pay1 (F := Ideal) (k4_pay2 x0 x1 x2 (View.ld x3 r4_3) (View.ld x4 r4_4) (View.ld x3 r4_5) (View.ld x4 r4_6))
        (k4_pay3 (View.ld x3 r4_7)) (View.ld x4 r4_8) x5
      = Spec.head x0 x1 x2 x3 x4 x5 := by
  rw [pay1, pay2]
  unfold k4_pay3
  rw [plane_ld 0 (by decide) x3, plane_ld 1 (by decide) x3, plane_ld 2 (by decide) x3,
    row_ld 0 (by decide) x4, row_ld 1 (by decide) x4, row_ld 2 (by decide) x4]
  rfl

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Point `t` works on band `t` of the rows and on the whole of every weight and bias array; its result goes to band `t`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 3) = 0 ∧ win4_3.index t (1 : Fin 3) = 0 ∧ win4_3.index t (2 : Fin 3) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

theorem band_le (t : Fin cfg4.N) : 5000 * t.val + 5000 ≤ 50000 := by
  have h := t.isLt; have hN : cfg4.N = 10 := N_4; omega

/-- The band of rows point `t` reads. -/
theorem iblk_v (c : Dev nD) (t : Fin cfg4.N) :
    (iblk4 V c 0 t : Vec Ideal S5000x128 .f32) = Spec.rowsFrom (5000 * t.val) (band_le t) (V c main_v64 : Spec.Mat 50000 128) := by
  obtain ⟨e0, e1, -, -, -, -, -, -, -, -, -, -, -, -⟩ := idx_facts t
  funext y
  unfold iblk4
  rw [View.read_apply]
  show V c main_v64 (((cfg4.win 0).blk t).view.emb y) = V c main_v64 _
  refine congrArg _ (funext fun a => Fin.ext ?_)
  match a with
  | ⟨0, _⟩ => show win4_0.index t (0 : Fin 2) * 5000 + 1 * (y 0).val = 5000 * t.val + (y 0).val; rw [e0]; omega
  | ⟨1, _⟩ => show win4_0.index t (1 : Fin 2) * 128 + 1 * (y 1).val = (y 1).val; rw [e1]; omega

theorem iblk_uw (c : Dev nD) (t : Fin cfg4.N) :
    (iblk4 V c 1 t : Vec Ideal S256x128 .f32) = V c main_arg12 := by
  obtain ⟨-, -, e2, e3, e4, e5, e6, e7, e8, e9, e10, e11, -, -⟩ := idx_facts t
  funext y
  unfold iblk4
  rw [View.read_apply]
  show V c main_arg12 (((cfg4.win 1).blk t).view.emb y) = V c main_arg12 y
  refine congrArg _ (funext fun a => Fin.ext ?_)
  match a with
  | ⟨0, _⟩ => show win4_1.index t (0 : Fin 2) * 256 + 1 * (y 0).val = (y 0).val; rw [e2]; omega
  | ⟨1, _⟩ => show win4_1.index t (1 : Fin 2) * 128 + 1 * (y 1).val = (y 1).val; rw [e3]; omega

theorem iblk_ub (c : Dev nD) (t : Fin cfg4.N) :
    (iblk4 V c 2 t : Vec Ideal S256 .f32) = V c main_arg13 := by
  obtain ⟨-, -, -, -, e4, -, -, -, -, -, -, -, -, -⟩ := idx_facts t
  funext y
  unfold iblk4
  rw [View.read_apply]
  show V c main_arg13 (((cfg4.win 2).blk t).view.emb y) = V c main_arg13 y
  refine congrArg _ (funext fun a => Fin.ext ?_)
  match a with
  | ⟨0, _⟩ => show win4_2.index t (0 : Fin 1) * 256 + 1 * (y 0).val = (y 0).val; rw [e4]; omega

theorem iblk_lw (c : Dev nD) (t : Fin cfg4.N) :
    (iblk4 V c 3 t : Vec Ideal S3x256x256 .f32) = V c main_arg14 := by
  obtain ⟨-, -, -, -, -, e5, e6, e7, -, -, -, -, -, -⟩ := idx_facts t
  funext y
  unfold iblk4
  rw [View.read_apply]
  show V c main_arg14 (((cfg4.win 3).blk t).view.emb y) = V c main_arg14 y
  refine congrArg _ (funext fun a => Fin.ext ?_)
  match a with
  | ⟨0, _⟩ => show win4_3.index t (0 : Fin 3) * 3 + 1 * (y 0).val = (y 0).val; rw [e5]; omega
  | ⟨1, _⟩ => show win4_3.index t (1 : Fin 3) * 256 + 1 * (y 1).val = (y 1).val; rw [e6]; omega
  | ⟨2, _⟩ => show win4_3.index t (2 : Fin 3) * 256 + 1 * (y 2).val = (y 2).val; rw [e7]; omega

theorem iblk_lb (c : Dev nD) (t : Fin cfg4.N) :
    (iblk4 V c 4 t : Vec Ideal S3x256 .f32) = V c main_arg15 := by
  obtain ⟨-, -, e2, e3, e4, e5, e6, e7, e8, e9, e10, e11, -, -⟩ := idx_facts t
  funext y
  unfold iblk4
  rw [View.read_apply]
  show V c main_arg15 (((cfg4.win 4).blk t).view.emb y) = V c main_arg15 y
  refine congrArg _ (funext fun a => Fin.ext ?_)
  match a with
  | ⟨0, _⟩ => show win4_4.index t (0 : Fin 2) * 3 + 1 * (y 0).val = (y 0).val; rw [e8]; omega
  | ⟨1, _⟩ => show win4_4.index t (1 : Fin 2) * 256 + 1 * (y 1).val = (y 1).val; rw [e9]; omega

theorem iblk_fw (c : Dev nD) (t : Fin cfg4.N) :
    (iblk4 V c 5 t : Vec Ideal S1x256 .f32) = V c main_arg16 := by
  obtain ⟨-, -, e2, e3, e4, e5, e6, e7, e8, e9, e10, e11, -, -⟩ := idx_facts t
  funext y
  unfold iblk4
  rw [View.read_apply]
  show V c main_arg16 (((cfg4.win 5).blk t).view.emb y) = V c main_arg16 y
  refine congrArg _ (funext fun a => Fin.ext ?_)
  match a with
  | ⟨0, _⟩ => show win4_5.index t (0 : Fin 2) * 1 + 1 * (y 0).val = (y 0).val; rw [e10]; omega
  | ⟨1, _⟩ => show win4_5.index t (1 : Fin 2) * 256 + 1 * (y 1).val = (y 1).val; rw [e11]; omega

/-- What point `t` writes back is band `t` of the head of all the rows. -/
theorem flushed_eq (c : Dev nD) (t : Fin cfg4.N) :
    (dat4 V c).flushed 6 t = ((cfg4.win 6).blk t).view.read (Elt Ideal)
      (Spec.head (V c main_v64 : Spec.Mat 50000 128) (V c main_arg12 : Spec.Mat 256 128) (V c main_arg13 : Spec.Row 256)
        (V c main_arg14 : Spec.Stack 3 256 256) (V c main_arg15 : Spec.Mat 3 256) (V c main_arg16 : Spec.Mat 1 256)) := by
  obtain ⟨-, -, -, -, -, -, -, -, -, -, -, -, e12, e13⟩ := idx_facts t
  show (cfg4.win 6).cut (grid4.coords t) ((dat4 V c).after 6 t) = _
  rw [after4_6]
  unfold out4_6
  rw [View.canon_unit_zero hz]
  simp only [View.ld_unit_zero (S := S5000x128) hz, View.ld_unit_zero (S := S256x128) hz, View.ld_unit_zero (S := S256) hz1,
    View.ld_unit_zero (S := S1x256) hz]
  rw [pay, iblk_v, iblk_uw, iblk_ub, iblk_lw, iblk_lb, iblk_fw, Spec.head_rowsFrom]
  funext j
  rw [View.read_apply]
  show Spec.head (V c main_v64 : Spec.Mat 50000 128) (V c main_arg12 : Spec.Mat 256 128) (V c main_arg13 : Spec.Row 256)
        (V c main_arg14 : Spec.Stack 3 256 256) (V c main_arg15 : Spec.Mat 3 256) (V c main_arg16 : Spec.Mat 1 256) _
      = Spec.head (V c main_v64 : Spec.Mat 50000 128) (V c main_arg12 : Spec.Mat 256 128) (V c main_arg13 : Spec.Row 256)
        (V c main_arg14 : Spec.Stack 3 256 256) (V c main_arg15 : Spec.Mat 3 256) (V c main_arg16 : Spec.Mat 1 256)
        (((cfg4.win 6).blk t).view.emb j)
  refine congrArg _ (funext fun a => Fin.ext ?_)
  match a with
  | ⟨0, _⟩ => show 5000 * t.val + (j 0).val = win4_6.index t (0 : Fin 2) * 5000 + 1 * (j 0).val; rw [e12]; omega
  | ⟨1, _⟩ => show (j 1).val = win4_6.index t (1 : Fin 2) * 1 + 1 * (j 1).val; rw [e13]; omega

/-- The ten bands tile the rows, so the result array ends at the head of all the rows. -/
theorem arr (c : Dev nD) : (dat4 V c).arrAt 6 cfg4.N = Spec.head (V c main_v64 : Spec.Mat 50000 128) (V c main_arg12 : Spec.Mat 256 128) (V c main_arg13 : Spec.Row 256) (V c main_arg14 : Spec.Stack 3 256 256) (V c main_arg15 : Spec.Mat 3 256) (V c main_arg16 : Spec.Mat 1 256) :=
  (dat4 V c).arrAt_eq_of_cover 6 _ (fun t _ => flushed_eq V c t) fun i => by
    have hi0 : (i 0).val < 50000 := (i 0).isLt
    have hi1 : (i 1).val < 1 := (i 1).isLt
    let t : Fin cfg4.N := ⟨(i 0).val / 5000, by rw [show cfg4.N = 10 from N_4]; omega⟩
    obtain ⟨-, -, -, -, -, -, -, -, -, -, -, -, e12, e13⟩ := idx_facts t
    refine ⟨t, flush4_6 t, ?_⟩
    show i ∈ ((View.whole main_v65).slice (win4_6.rect t)).set
    rw [View.set_slice_whole, Rect.mem_set_unit]
    intro a
    match a with
    | ⟨0, _⟩ => show win4_6.index t (0 : Fin 2) * 5000 ≤ (i 0).val ∧ (i 0).val < win4_6.index t (0 : Fin 2) * 5000 + 5000; rw [e12]; show (i 0).val / 5000 * 5000 ≤ _ ∧ _ < (i 0).val / 5000 * 5000 + 5000; omega
    | ⟨1, _⟩ => show win4_6.index t (1 : Fin 2) * 1 ≤ (i 1).val ∧ (i 1).val < win4_6.index t (1 : Fin 2) * 1 + 1; rw [e13]; omega

end Cert.KernelIdeal.Reg4

end
-- ==== Proof.RefProj.lean ====
/-
  The reference's two projections (a product with the transposed convolution weights, computed by transposing the
  weights and contracting) are the layer `x · wᵀ`: entry (r, c) is the sum over k of x[r, k] · w[c, k].
-/
import proofs.«427005_j40638980555086_1_alg».proof.Proof.Gen.ReferenceIdeal.Read
import proofs.«427005_j40638980555086_1_alg».proof.Proof.Spec

noncomputable section

namespace Cert.ReferenceIdeal.RefSpec

open Idealize.ShloMosaic Idealize.ShloMosaic.TcCoe Idealize.ShloMosaic.ValueIdx
open Cert.ReferenceIdeal Cert.ReferenceIdeal.Read

/-- The projection before the first message pass. -/
theorem proj1 (x0 : (⟨S600000x128, .f32⟩ : BufTy).Contents (Elt Ideal)) (x1 : (⟨S600000, .i32⟩ : BufTy).Contents (Elt Ideal)) (x2 : (⟨S50000x7, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) :
    Read.val_main_v58 (F := Ideal) x0 x1 x2 x5 x6 x7 = Spec.mulT (Read.val_main_v8 (F := Ideal) x0 x1 x2 x5 x6) x7 := by
  funext i
  rw [val_main_v58_apply]
  unfold Spec.mulT
  refine Finset.sum_congr rfl fun k _ => ?_
  rw [val_main_v57_apply]
  have el : lidx_main_v58 i k = ix2 (i 0) k := funext fun a => by
    match a with
    | ⟨0, _⟩ => rfl
    | ⟨1, _⟩ => rfl
  have er : idx_main_v57 (ridx_main_v58 i k) = ix2 (i 1) k := funext fun a => by
    match a with
    | ⟨0, _⟩ => rfl
    | ⟨1, _⟩ => rfl
  rw [el, er]
  rfl

/-- The projection before the second message pass. -/
theorem proj2 (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) :
    Read.val_main_v73 (F := Ideal) x0 x1 x2 x3 x4 x5 x6 x7 x8 x9 x10 x11 = Spec.mulT (Read.val_main_v71 (F := Ideal) x0 x1 x2 x3 x4 x5 x6 x7 x8 x9 x10 x11) x7 := by
  funext i
  rw [val_main_v73_apply]
  unfold Spec.mulT
  refine Finset.sum_congr rfl fun k _ => ?_
  rw [val_main_v72_apply]
  have el : lidx_main_v73 i k = ix2 (i 0) k := funext fun a => by
    match a with
    | ⟨0, _⟩ => rfl
    | ⟨1, _⟩ => rfl
  have er : idx_main_v72 (ridx_main_v73 i k) = ix2 (i 1) k := funext fun a => by
    match a with
    | ⟨0, _⟩ => rfl
    | ⟨1, _⟩ => rfl
  rw [el, er]
  rfl

end Cert.ReferenceIdeal.RefSpec

end
-- ==== Proof.RefAffine.lean ====
/-
  The reference's first linear layer (a product with the transposed weights, computed by transposing the weights
  and contracting, then the bias repeated down the rows and added) is the layer `x · wᵀ + b`: entry (r, c) is
  the sum over k of x[r, k] · w[c, k], plus b[c].
-/
import proofs.«427005_j40638980555086_1_alg».proof.Proof.Gen.ReferenceIdeal.Read
import proofs.«427005_j40638980555086_1_alg».proof.Proof.Spec

noncomputable section

namespace Cert.ReferenceIdeal.RefSpec

open Idealize.ShloMosaic Idealize.ShloMosaic.TcCoe Idealize.ShloMosaic.ValueIdx
open Cert.ReferenceIdeal Cert.ReferenceIdeal.Read

/-- The first linear layer, on the concatenated node features. -/
theorem affine (x0 : (⟨S600000x128, .f32⟩ : BufTy).Contents (Elt Ideal)) (x1 : (⟨S600000, .i32⟩ : BufTy).Contents (Elt Ideal)) (x2 : (⟨S50000x7, .f32⟩ : BufTy).Contents (Elt Ideal)) (x5 : (⟨S128x135, .f32⟩ : BufTy).Contents (Elt Ideal)) (x6 : (⟨S128, .f32⟩ : BufTy).Contents (Elt Ideal)) :
    Read.val_main_v8 (F := Ideal) x0 x1 x2 x5 x6 = Spec.affine (Read.val_main_v3 (F := Ideal) x0 x1 x2) x5 x6 := by
  funext i
  rw [val_main_v8_apply, val_main_v5_apply, val_main_v7_apply, val_main_v6_apply]
  generalize val_main_v3 (F := Ideal) x0 x1 x2 = y
  unfold Spec.affine Spec.addRow Spec.mulT
  -- the bias: the two repetitions read the bias at the column
  have eb : idx_main_v6 (idx_main_v7 i) = ix1 (i 1) := funext fun a => by
    match a with
    | ⟨0, _⟩ => rfl
  rw [eb]
  refine congrArg (· + x6 (ix1 (i 1))) ?_
  -- the product: the left operand at (row, k), the transposed weights at (k, column)
  refine Finset.sum_congr rfl fun k _ => ?_
  rw [val_main_v4_apply]
  have el : lidx_main_v5 i k = ix2 (i 0) k := funext fun a => by
    match a with
    | ⟨0, _⟩ => rfl
    | ⟨1, _⟩ => rfl
  have er : idx_main_v4 (ridx_main_v5 i k) = ix2 (i 1) k := funext fun a => by
    match a with
    | ⟨0, _⟩ => rfl
    | ⟨1, _⟩ => rfl
  rw [el, er]
  rfl

end Cert.ReferenceIdeal.RefSpec

end
-- ==== Proof.RefGate.lean ====
/-
  The reference's edge gate. It forms `a · w1ᵀ + b1` by transposing the weights and contracting, takes the maximum with
  zero, does the same with the one row `w2` and the bias `b2`, and then spells the logistic function out:
  1 / (1 + e^(-y)). Entry by entry this is the gate of the whole input.
-/
import proofs.«427005_j40638980555086_1_alg».proof.Proof.Gen.ReferenceIdeal.Read
import proofs.«427005_j40638980555086_1_alg».proof.Proof.Spec

noncomputable section

namespace Cert.ReferenceIdeal.RefSpec

open Idealize.ShloMosaic Idealize.ShloMosaic.TcCoe Idealize.ShloMosaic.ValueIdx
open Cert.ReferenceIdeal Cert.ReferenceIdeal.Read

/-- The first product: entry (r, c) is the sum over k of a[r, k] · w1[c, k]. -/
theorem gate_mul1 (x4 : (⟨S1600000x8, .f32⟩ : BufTy).Contents (Elt Ideal)) (x8 : (⟨S8x8, .f32⟩ : BufTy).Contents (Elt Ideal)) :
    Read.val_main_v10 (F := Ideal) x4 x8 = Spec.mulT x4 x8 := by
  funext i
  rw [val_main_v10_apply]
  unfold Spec.mulT
  refine Finset.sum_congr rfl fun k _ => ?_
  rw [val_main_v9_apply]
  have el : lidx_main_v10 i k = ix2 (i 0) k := funext fun a => by
    match a with
    | ⟨0, _⟩ => rfl
    | ⟨1, _⟩ => rfl
  have er : idx_main_v9 (ridx_main_v10 i k) = ix2 (i 1) k := funext fun a => by
    match a with
    | ⟨0, _⟩ => rfl
    | ⟨1, _⟩ => rfl
  rw [el, er]
  rfl

/-- The first bias, viewed as one row and repeated on every row: entry (r, c) is b1[c]. -/
theorem gate_bias1 (x9 : (⟨S8, .f32⟩ : BufTy).Contents (Elt Ideal)) :
    Read.val_main_v12 (F := Ideal) x9 = fun i => x9 (ix1 (i 1)) := by
  funext i
  rw [val_main_v12_apply, val_main_v11_apply]
  have e : idx_main_v11 (idx_main_v12 i) = ix1 (i 1) := funext fun a => by
    match a with
    | ⟨0, _⟩ => rfl
  rw [e]
  rfl

/-- The first layer with its maximum: the zero word is the extended real 0. -/
theorem gate_layer1 (x4 : (⟨S1600000x8, .f32⟩ : BufTy).Contents (Elt Ideal)) (x8 : (⟨S8x8, .f32⟩ : BufTy).Contents (Elt Ideal)) (x9 : (⟨S8, .f32⟩ : BufTy).Contents (Elt Ideal)) :
    Read.val_main_v15 (F := Ideal) x4 x8 x9 = Spec.relu (Spec.affine x4 x8 x9) := by
  funext i
  rw [val_main_v15_apply, val_main_v14_apply, val_main_cst_0_apply, val_main_v13_apply, gate_mul1, gate_bias1]
  show max (Spec.mulT x4 x8 i + x9 (ix1 (i 1))) (Ideal.ofBits .f32 0x00000000#32) = max (Spec.mulT x4 x8 i + x9 (ix1 (i 1))) 0
  rw [Ideal.ofBits_zero_f32]

/-- The second product: entry (r, 0) is the sum over k of y[r, k] · w2[0, k], `y` the first layer's result. -/
theorem gate_mul2 (x4 : (⟨S1600000x8, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) :
    Read.val_main_v17 (F := Ideal) x4 x8 x9 x10 = Spec.mulT (Read.val_main_v15 (F := Ideal) x4 x8 x9) x10 := by
  funext i
  rw [val_main_v17_apply]
  unfold Spec.mulT
  refine Finset.sum_congr rfl fun k _ => ?_
  rw [val_main_v16_apply]
  have el : lidx_main_v17 i k = ix2 (i 0) k := funext fun a => by
    match a with
    | ⟨0, _⟩ => rfl
    | ⟨1, _⟩ => rfl
  have er : idx_main_v16 (ridx_main_v17 i k) = ix2 (i 1) k := funext fun a => by
    match a with
    | ⟨0, _⟩ => rfl
    | ⟨1, _⟩ => rfl
  rw [el, er]
  rfl

/-- The second bias, viewed as a 1 × 1 array and repeated on every row: entry (r, 0) is b2[0]. -/
theorem gate_bias2 (x11 : (⟨S1, .f32⟩ : BufTy).Contents (Elt Ideal)) :
    Read.val_main_v19 (F := Ideal) x11 = fun i => x11 (ix1 (i 1)) := by
  funext i
  rw [val_main_v19_apply, val_main_v18_apply]
  have e : idx_main_v18 (idx_main_v19 i) = ix1 (i 1) := funext fun a => by
    match a with
    | ⟨0, _⟩ => exact Fin.ext (by have h : (i 1).val < 1 := (i 1).isLt; show 0 = (i 1).val; omega)
  rw [e]
  rfl

/-- The word 0x3F800000 is the extended real 1: sign 0, biased exponent 127, fraction 0. -/
theorem gate_one_word : Ideal.ofBits .f32 0x3F800000#32 = 1 := by
  simp [Ideal.ofBits, Ideal.ieee]
  rw [← EReal.coe_mul]
  norm_num

/-- The reference's edge gate is the gate of the whole input: 1 / (1 + e^(-y)) is the logistic function of y. -/
theorem gate (x4 : (⟨S1600000x8, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) :
    Read.val_main_v26 (F := Ideal) x4 x8 x9 x10 x11 = Spec.gate x4 x8 x9 x10 x11 := by
  funext i
  rw [val_main_v26_apply, val_main_v25_apply, val_main_cst_2_apply, val_main_v24_apply, val_main_v23_apply, val_main_cst_1_apply,
    val_main_v22_apply, val_main_v21_apply, val_main_v20_apply, gate_mul2, gate_layer1, gate_bias2]
  show Ideal.div (Ideal.ofBits .f32 0x3F800000#32) (Ideal.ofBits .f32 0x3F800000#32
      + Ideal.exp (-(Spec.mulT (Spec.relu (Spec.affine x4 x8 x9)) x10 i + x11 (ix1 (i 1)))))
    = Ideal.logistic (Spec.mulT (Spec.relu (Spec.affine x4 x8 x9)) x10 i + x11 (ix1 (i 1)))
  rw [gate_one_word]
  rfl

end Cert.ReferenceIdeal.RefSpec

end
-- ==== Proof.RefHead.lean ====
/-
  The reference's output head is the composition of dense layers `Spec.head`: an affine layer into 256 features,
  three affine layers each followed by the maximum with zero — layer l's weights and bias are matrix l and row l
  of the stacked parameters, cut out by a slice and a reshape —, and a last product with the transposed output
  weights, without bias.
-/
import proofs.«427005_j40638980555086_1_alg».proof.Proof.Gen.ReferenceIdeal.Read
import proofs.«427005_j40638980555086_1_alg».proof.Proof.Spec

noncomputable section

namespace Cert.ReferenceIdeal.RefSpec

open Idealize.ShloMosaic Idealize.ShloMosaic.TcCoe Idealize.ShloMosaic.ValueIdx
open Cert.ReferenceIdeal Cert.ReferenceIdeal.Read

/-- The head's first layer: `v · uwᵀ + ub`. -/
theorem headUp (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) :
    Read.val_main_v92 (F := Ideal) x0 x1 x2 x3 x4 x5 x6 x7 x8 x9 x10 x11 x12 x13 = Spec.affine (Read.val_main_v87 (F := Ideal) x0 x1 x2 x3 x4 x5 x6 x7 x8 x9 x10 x11) x12 x13 := by
  funext i
  rw [val_main_v92_apply, val_main_v89_apply, val_main_v91_apply, val_main_v90_apply]
  generalize val_main_v87 (F := Ideal) x0 x1 x2 x3 x4 x5 x6 x7 x8 x9 x10 x11 = y
  unfold Spec.affine Spec.addRow Spec.mulT
  have eb : idx_main_v90 (idx_main_v91 i) = ix1 (i 1) := funext fun a => by
    match a with
    | ⟨0, _⟩ => rfl
  rw [eb]
  refine congrArg (· + x13 (ix1 (i 1))) ?_
  refine Finset.sum_congr rfl fun k _ => ?_
  rw [val_main_v88_apply]
  have el : lidx_main_v89 i k = ix2 (i 0) k := funext fun a => by
    match a with
    | ⟨0, _⟩ => rfl
    | ⟨1, _⟩ => rfl
  have er : idx_main_v88 (ridx_main_v89 i k) = ix2 (i 1) k := funext fun a => by
    match a with
    | ⟨0, _⟩ => rfl
    | ⟨1, _⟩ => rfl
  rw [el, er]
  rfl

/-- The first hidden layer: matrix 0 and row 0 of the stacked parameters, then the maximum with zero. -/
theorem layer0 (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) (x14 : (⟨S3x256x256, .f32⟩ : BufTy).Contents (Elt Ideal)) (x15 : (⟨S3x256, .f32⟩ : BufTy).Contents (Elt Ideal)) :
    Read.val_main_v102 (F := Ideal) x0 x1 x2 x3 x4 x5 x6 x7 x8 x9 x10 x11 x12 x13 x14 x15 = Spec.relu (Spec.affine (Read.val_main_v92 (F := Ideal) x0 x1 x2 x3 x4 x5 x6 x7 x8 x9 x10 x11 x12 x13) (Spec.plane 0 x14) (Spec.rowOf 0 x15)) := by
  funext i
  rw [val_main_v102_apply, val_main_v101_apply, val_main_v96_apply, val_main_v100_apply, val_main_v99_apply, val_main_v98_apply, val_main_v97_apply,
    val_main_call2_v0_apply, val_main_call2_cst_apply]
  generalize val_main_v92 (F := Ideal) x0 x1 x2 x3 x4 x5 x6 x7 x8 x9 x10 x11 x12 x13 = y
  unfold Spec.relu Spec.affine Spec.addRow Spec.mulT Spec.rowOf Spec.plane
  rw [Ideal.maximumf_def, Ideal.addf_def, Ideal.ofBits_def, Ideal.ofBits_zero_f32]
  have h1 : (i 1).val < 256 := (i 1).isLt
  -- the bias: row 0 of the stacked biases, read at the column
  have eb : idx_main_v97 (idx_main_v98 (idx_main_v99 (idx_main_v100 i))) = ix2 (0 : Fin 3) (i 1) := funext fun a => Fin.ext (by
    match a with
    | ⟨0, _⟩ => rfl
    | ⟨1, _⟩ => show (i 1).val % 256 = (i 1).val; omega)
  rw [eb]
  refine congrArg (fun s => max (s + x15 (ix2 (0 : Fin 3) (i 1))) 0) ?_
  -- the product: the left operand at (row, k), matrix 0 of the stacked weights at (column, k)
  refine Finset.sum_congr rfl fun k _ => ?_
  rw [val_main_v95_apply, val_main_v94_apply, val_main_v93_apply]
  have hk : k.val < 256 := k.isLt
  have el : lidx_main_v96 i k = ix2 (i 0) k := funext fun a => by
    match a with
    | ⟨0, _⟩ => rfl
    | ⟨1, _⟩ => rfl
  have er : idx_main_v93 (idx_main_v94 (idx_main_v95 (ridx_main_v96 i k))) = ix3 (0 : Fin 3) (i 1) k := funext fun a => Fin.ext (by
    match a with
    | ⟨0, _⟩ => rfl
    | ⟨1, _⟩ => show ((i 1).val * 256 + k.val) / 256 % 256 = (i 1).val; omega
    | ⟨2, _⟩ => show ((i 1).val * 256 + k.val) % 256 = k.val; omega)
  rw [el, er]
  rfl

/-- The second hidden layer: matrix 1 and row 1 of the stacked parameters, then the maximum with zero. -/
theorem layer1 (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) (x14 : (⟨S3x256x256, .f32⟩ : BufTy).Contents (Elt Ideal)) (x15 : (⟨S3x256, .f32⟩ : BufTy).Contents (Elt Ideal)) :
    Read.val_main_v112 (F := Ideal) x0 x1 x2 x3 x4 x5 x6 x7 x8 x9 x10 x11 x12 x13 x14 x15 = Spec.relu (Spec.affine (Read.val_main_v102 (F := Ideal) x0 x1 x2 x3 x4 x5 x6 x7 x8 x9 x10 x11 x12 x13 x14 x15) (Spec.plane 1 x14) (Spec.rowOf 1 x15)) := by
  funext i
  rw [val_main_v112_apply, val_main_v111_apply, val_main_v106_apply, val_main_v110_apply, val_main_v109_apply, val_main_v108_apply, val_main_v107_apply,
    val_main_call3_v0_apply, val_main_call3_cst_apply]
  generalize val_main_v102 (F := Ideal) x0 x1 x2 x3 x4 x5 x6 x7 x8 x9 x10 x11 x12 x13 x14 x15 = y
  unfold Spec.relu Spec.affine Spec.addRow Spec.mulT Spec.rowOf Spec.plane
  rw [Ideal.maximumf_def, Ideal.addf_def, Ideal.ofBits_def, Ideal.ofBits_zero_f32]
  have h1 : (i 1).val < 256 := (i 1).isLt
  -- the bias: row 1 of the stacked biases, read at the column
  have eb : idx_main_v107 (idx_main_v108 (idx_main_v109 (idx_main_v110 i))) = ix2 (1 : Fin 3) (i 1) := funext fun a => Fin.ext (by
    match a with
    | ⟨0, _⟩ => rfl
    | ⟨1, _⟩ => show (i 1).val % 256 = (i 1).val; omega)
  rw [eb]
  refine congrArg (fun s => max (s + x15 (ix2 (1 : Fin 3) (i 1))) 0) ?_
  -- the product: the left operand at (row, k), matrix 1 of the stacked weights at (column, k)
  refine Finset.sum_congr rfl fun k _ => ?_
  rw [val_main_v105_apply, val_main_v104_apply, val_main_v103_apply]
  have hk : k.val < 256 := k.isLt
  have el : lidx_main_v106 i k = ix2 (i 0) k := funext fun a => by
    match a with
    | ⟨0, _⟩ => rfl
    | ⟨1, _⟩ => rfl
  have er : idx_main_v103 (idx_main_v104 (idx_main_v105 (ridx_main_v106 i k))) = ix3 (1 : Fin 3) (i 1) k := funext fun a => Fin.ext (by
    match a with
    | ⟨0, _⟩ => rfl
    | ⟨1, _⟩ => show ((i 1).val * 256 + k.val) / 256 % 256 = (i 1).val; omega
    | ⟨2, _⟩ => show ((i 1).val * 256 + k.val) % 256 = k.val; omega)
  rw [el, er]
  rfl

/-- The third hidden layer: matrix 2 and row 2 of the stacked parameters, then the maximum with zero. -/
theorem layer2 (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) (x14 : (⟨S3x256x256, .f32⟩ : BufTy).Contents (Elt Ideal)) (x15 : (⟨S3x256, .f32⟩ : BufTy).Contents (Elt Ideal)) :
    Read.val_main_v122 (F := Ideal) x0 x1 x2 x3 x4 x5 x6 x7 x8 x9 x10 x11 x12 x13 x14 x15 = Spec.relu (Spec.affine (Read.val_main_v112 (F := Ideal) x0 x1 x2 x3 x4 x5 x6 x7 x8 x9 x10 x11 x12 x13 x14 x15) (Spec.plane 2 x14) (Spec.rowOf 2 x15)) := by
  funext i
  rw [val_main_v122_apply, val_main_v121_apply, val_main_v116_apply, val_main_v120_apply, val_main_v119_apply, val_main_v118_apply, val_main_v117_apply,
    val_main_call4_v0_apply, val_main_call4_cst_apply]
  generalize val_main_v112 (F := Ideal) x0 x1 x2 x3 x4 x5 x6 x7 x8 x9 x10 x11 x12 x13 x14 x15 = y
  unfold Spec.relu Spec.affine Spec.addRow Spec.mulT Spec.rowOf Spec.plane
  rw [Ideal.maximumf_def, Ideal.addf_def, Ideal.ofBits_def, Ideal.ofBits_zero_f32]
  have h1 : (i 1).val < 256 := (i 1).isLt
  -- the bias: row 2 of the stacked biases, read at the column
  have eb : idx_main_v117 (idx_main_v118 (idx_main_v119 (idx_main_v120 i))) = ix2 (2 : Fin 3) (i 1) := funext fun a => Fin.ext (by
    match a with
    | ⟨0, _⟩ => rfl
    | ⟨1, _⟩ => show (i 1).val % 256 = (i 1).val; omega)
  rw [eb]
  refine congrArg (fun s => max (s + x15 (ix2 (2 : Fin 3) (i 1))) 0) ?_
  -- the product: the left operand at (row, k), matrix 2 of the stacked weights at (column, k)
  refine Finset.sum_congr rfl fun k _ => ?_
  rw [val_main_v115_apply, val_main_v114_apply, val_main_v113_apply]
  have hk : k.val < 256 := k.isLt
  have el : lidx_main_v116 i k = ix2 (i 0) k := funext fun a => by
    match a with
    | ⟨0, _⟩ => rfl
    | ⟨1, _⟩ => rfl
  have er : idx_main_v113 (idx_main_v114 (idx_main_v115 (ridx_main_v116 i k))) = ix3 (2 : Fin 3) (i 1) k := funext fun a => Fin.ext (by
    match a with
    | ⟨0, _⟩ => rfl
    | ⟨1, _⟩ => show ((i 1).val * 256 + k.val) / 256 % 256 = (i 1).val; omega
    | ⟨2, _⟩ => show ((i 1).val * 256 + k.val) % 256 = k.val; omega)
  rw [el, er]
  rfl

/-- The last product, with the transposed output weights. -/
theorem headOut (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) (x14 : (⟨S3x256x256, .f32⟩ : BufTy).Contents (Elt Ideal)) (x15 : (⟨S3x256, .f32⟩ : BufTy).Contents (Elt Ideal)) (x16 : (⟨S1x256, .f32⟩ : BufTy).Contents (Elt Ideal)) :
    Read.val_main_v124 (F := Ideal) x0 x1 x2 x3 x4 x5 x6 x7 x8 x9 x10 x11 x12 x13 x14 x15 x16 = Spec.mulT (Read.val_main_v122 (F := Ideal) x0 x1 x2 x3 x4 x5 x6 x7 x8 x9 x10 x11 x12 x13 x14 x15) x16 := by
  funext i
  rw [val_main_v124_apply]
  generalize val_main_v122 (F := Ideal) x0 x1 x2 x3 x4 x5 x6 x7 x8 x9 x10 x11 x12 x13 x14 x15 = y
  unfold Spec.mulT
  refine Finset.sum_congr rfl fun k _ => ?_
  rw [val_main_v123_apply]
  have el : lidx_main_v124 i k = ix2 (i 0) k := funext fun a => by
    match a with
    | ⟨0, _⟩ => rfl
    | ⟨1, _⟩ => rfl
  have er : idx_main_v123 (ridx_main_v124 i k) = ix2 (i 1) k := funext fun a => by
    match a with
    | ⟨0, _⟩ => rfl
    | ⟨1, _⟩ => rfl
  rw [el, er]
  rfl

/-- The whole head, layer by layer. -/
theorem head (x0 : (⟨S600000x128, .f32⟩ : BufTy).Contents (Elt Ideal)) (x1 : (⟨S600000, .i32⟩ : BufTy).Contents (Elt Ideal)) (x2 : (⟨S50000x7, .f32⟩ : BufTy).Contents (Elt Ideal)) (x3 : (⟨S2x1600000, .i32⟩ : BufTy).Contents (Elt Ideal)) (x4 : (⟨S1600000x8, .f32⟩ : BufTy).Contents (Elt Ideal)) (x5 : (⟨S128x135, .f32⟩ : BufTy).Contents (Elt Ideal)) (x6 : (⟨S128, .f32⟩ : BufTy).Contents (Elt Ideal)) (x7 : (⟨S128x128, .f32⟩ : BufTy).Contents (Elt Ideal)) (x8 : (⟨S8x8, .f32⟩ : BufTy).Contents (Elt Ideal)) (x9 : (⟨S8, .f32⟩ : BufTy).Contents (Elt Ideal)) (x10 : (⟨S1x8, .f32⟩ : BufTy).Contents (Elt Ideal)) (x11 : (⟨S1, .f32⟩ : BufTy).Contents (Elt Ideal)) (x12 : (⟨S256x128, .f32⟩ : BufTy).Contents (Elt Ideal)) (x13 : (⟨S256, .f32⟩ : BufTy).Contents (Elt Ideal)) (x14 : (⟨S3x256x256, .f32⟩ : BufTy).Contents (Elt Ideal)) (x15 : (⟨S3x256, .f32⟩ : BufTy).Contents (Elt Ideal)) (x16 : (⟨S1x256, .f32⟩ : BufTy).Contents (Elt Ideal)) :
    Read.val_main_v124 (F := Ideal) x0 x1 x2 x3 x4 x5 x6 x7 x8 x9 x10 x11 x12 x13 x14 x15 x16 = Spec.head (Read.val_main_v87 (F := Ideal) x0 x1 x2 x3 x4 x5 x6 x7 x8 x9 x10 x11) x12 x13 x14 x15 x16 := by
  rw [headOut, layer2, layer1, layer0, headUp]
  rfl

end Cert.ReferenceIdeal.RefSpec

end
-- ==== Proof.KVal.lean ====
/-
  The kernel program's run read boundary by boundary. Between two launches the program applies host operations
  (scatters, gathers, compares and selects on the edge lists, products with the edge weights); each launch leaves
  its result array at one dense layer of its input (`Reg0` … `Reg4`). At every boundary the buffers a later
  stretch reads hold the reference's stage of the same name read at the arguments' launch contents:
  the host operations are the reference's own, applied to equal arrays, and each dense layer is the reference's
  contraction (`RefSpec`). A buffer that a stretch does not write keeps what it held. The last boundary's result
  buffer is therefore the reference's last stage.
-/
import proofs.«427005_j40638980555086_1_alg».proof.Proof.Gen.KernelIdeal.Frame
import proofs.«427005_j40638980555086_1_alg».proof.Proof.Gen.ReferenceIdeal.Read
import proofs.«427005_j40638980555086_1_alg».proof.Proof.Spec
import proofs.«427005_j40638980555086_1_alg».proof.Proof.Reg0
import proofs.«427005_j40638980555086_1_alg».proof.Proof.Reg1
import proofs.«427005_j40638980555086_1_alg».proof.Proof.Reg2
import proofs.«427005_j40638980555086_1_alg».proof.Proof.Reg3
import proofs.«427005_j40638980555086_1_alg».proof.Proof.Reg4
import proofs.«427005_j40638980555086_1_alg».proof.Proof.RefProj
import proofs.«427005_j40638980555086_1_alg».proof.Proof.RefAffine
import proofs.«427005_j40638980555086_1_alg».proof.Proof.RefGate
import proofs.«427005_j40638980555086_1_alg».proof.Proof.RefHead
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

/-- The launches' boundary facts restated so that a rewriting pass finds them at any buffer. -/
theorem W2_ne' (c : Dev nD) (b : Ref sig .tc) (hb : ∀ w, Pipeline.arrRef spec0 w ≠ b) :
    W2 m ρ c (no_index (Proc.devRef .tc b)) = W1 m ρ c (Proc.devRef .tc b) := W2_of_ne m ρ c b hb
theorem W3_ne' (c : Dev nD) (b : Ref sig .tc) (hb : ∀ w, Pipeline.arrRef spec1 w ≠ b) :
    W3 m ρ c (no_index (Proc.devRef .tc b)) = W2 m ρ c (Proc.devRef .tc b) := W3_of_ne m ρ c b hb
theorem W7_ne' (c : Dev nD) (b : Ref sig .tc) (hb : ∀ w, Pipeline.arrRef spec2 w ≠ b) :
    W7 m ρ c (no_index (Proc.devRef .tc b)) = W6 m ρ c (Proc.devRef .tc b) := W7_of_ne m ρ c b hb
theorem W9_ne' (c : Dev nD) (b : Ref sig .tc) (hb : ∀ w, Pipeline.arrRef spec3 w ≠ b) :
    W9 m ρ c (no_index (Proc.devRef .tc b)) = W8 m ρ c (Proc.devRef .tc b) := W9_of_ne m ρ c b hb
theorem W12_ne' (c : Dev nD) (b : Ref sig .tc) (hb : ∀ w, Pipeline.arrRef spec4 w ≠ b) :
    W12 m ρ c (no_index (Proc.devRef .tc b)) = W11 m ρ c (Proc.devRef .tc b) := W12_of_ne m ρ c b hb

/-- A buffer that neither the host operations nor the launches of a stretch of the program write is carried through it:
    the boundary contents at such a buffer are read back to an earlier boundary's. -/
macro "carried" "[" ids:ident,* "]" : tactic =>
  `(tactic| simp (disch := decide) only [$[$ids:ident],*, W12_ne', W9_ne', W7_ne', W3_ne', W2_ne',
      StableHlo.after_cons, StableHlo.after_nil,
      StableHlo.nullary_result_ne', StableHlo.unary_result_ne', StableHlo.binary_result_ne', StableHlo.ternary_result_ne',
      StableHlo.quaternary_result_ne', StableHlo.reshape_result_ne'])

/-! ## Before the first launch: the scatter of the messages onto the nodes, joined with the atom features -/

set_option maxHeartbeats 1000000 in
theorem W1_v3 (c : Dev nD) : W1 m ρ c (Proc.devRef .tc main_v3) = val_main_v3 (F := Ideal) (m ((c : Thread nD τ).loc main_arg0)) (m ((c : Thread nD τ).loc main_arg1)) (m ((c : Thread nD τ).loc main_arg2)) := by
  show StableHlo.after hostOps0 (W0 m ρ c) (Proc.devRef .tc main_v3) = _
  after_results
  unfold val_main_v3 val_main_v2 val_main_v1 val_main_v0 val_main_cst
  rfl

theorem W1_arg5 (c : Dev nD) : W1 m ρ c (Proc.devRef .tc main_arg5) = (m ((c : Thread nD τ).loc main_arg5)) := by
  carried [W1, hostOps0]
theorem W1_arg6 (c : Dev nD) : W1 m ρ c (Proc.devRef .tc main_arg6) = (m ((c : Thread nD τ).loc main_arg6)) := by
  carried [W1, hostOps0]

/-! ## The first linear layer and the edge gate -/

theorem W2_v4 (c : Dev nD) : W2 m ρ c (Proc.devRef .tc main_v4) = val_main_v8 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 3).trans ?_
  rw [Reg0.arr, Cert.ReferenceIdeal.RefSpec.affine]
  show Spec.affine (W1 m ρ c (Proc.devRef .tc main_v3)) (W1 m ρ c (Proc.devRef .tc main_arg5)) (W1 m ρ c (Proc.devRef .tc main_arg6)) = _
  rw [W1_v3, W1_arg5, W1_arg6]
theorem W2_arg4 (c : Dev nD) : W2 m ρ c (Proc.devRef .tc main_arg4) = (m ((c : Thread nD τ).loc main_arg4)) := by
  carried [W1, hostOps0]
theorem W2_arg8 (c : Dev nD) : W2 m ρ c (Proc.devRef .tc main_arg8) = (m ((c : Thread nD τ).loc main_arg8)) := by
  carried [W1, hostOps0]
theorem W2_arg9 (c : Dev nD) : W2 m ρ c (Proc.devRef .tc main_arg9) = (m ((c : Thread nD τ).loc main_arg9)) := by
  carried [W1, hostOps0]
theorem W2_arg10 (c : Dev nD) : W2 m ρ c (Proc.devRef .tc main_arg10) = (m ((c : Thread nD τ).loc main_arg10)) := by
  carried [W1, hostOps0]
theorem W2_arg11 (c : Dev nD) : W2 m ρ c (Proc.devRef .tc main_arg11) = (m ((c : Thread nD τ).loc main_arg11)) := by
  carried [W1, hostOps0]

theorem W3_v5 (c : Dev nD) : W3 m ρ c (Proc.devRef .tc main_v5) = val_main_v26 (F := Ideal) (m ((c : Thread nD τ).loc main_arg4)) (m ((c : Thread nD τ).loc main_arg8)) (m ((c : Thread nD τ).loc main_arg9)) (m ((c : Thread nD τ).loc main_arg10)) (m ((c : Thread nD τ).loc main_arg11)) := by
  refine (W3_arr m ρ c 5).trans ?_
  rw [Reg1.arr, Cert.ReferenceIdeal.RefSpec.gate]
  show Spec.gate (W2 m ρ c (Proc.devRef .tc main_arg4)) (W2 m ρ c (Proc.devRef .tc main_arg8)) (W2 m ρ c (Proc.devRef .tc main_arg9)) (W2 m ρ c (Proc.devRef .tc main_arg10)) (W2 m ρ c (Proc.devRef .tc main_arg11)) = _
  rw [W2_arg4, W2_arg8, W2_arg9, W2_arg10, W2_arg11]
theorem W3_arg3 (c : Dev nD) : W3 m ρ c (Proc.devRef .tc main_arg3) = (m ((c : Thread nD τ).loc main_arg3)) := by
  carried [W1, hostOps0]
theorem W3_v4 (c : Dev nD) : W3 m ρ c (Proc.devRef .tc main_v4) = val_main_v8 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (W3_of_ne m ρ c main_v4 (by decide)).trans (W2_v4 m ρ c)

/-! ## The degree normalisation: the gate as a vector, the two endpoint lists, the degrees, their inverse square roots -/

set_option maxHeartbeats 1000000 in
theorem W4_v6 (c : Dev nD) : W4 m ρ c (Proc.devRef .tc main_v6) = val_main_v27 (F := Ideal) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps2 (W3 m ρ c) (Proc.devRef .tc main_v6) = _
  have h_v5 := W3_v5 m ρ c
  generalize W3 m ρ c = V at h_v5 ⊢
  after_results_simp
  rw [h_v5]
  unfold val_main_v27
  rfl

set_option maxHeartbeats 1000000 in
theorem W4_v8 (c : Dev nD) : W4 m ρ c (Proc.devRef .tc main_v8) = val_main_v29 (F := Ideal) (m ((c : Thread nD τ).loc main_arg3)) := by
  show StableHlo.after hostOps2 (W3 m ρ c) (Proc.devRef .tc main_v8) = _
  have h_arg3 := W3_arg3 m ρ c
  generalize W3 m ρ c = V at h_arg3 ⊢
  after_results_simp
  rw [h_arg3]
  unfold val_main_v29 val_main_v28
  rfl

set_option maxHeartbeats 1000000 in
theorem W4_v10 (c : Dev nD) : W4 m ρ c (Proc.devRef .tc main_v10) = val_main_v31 (F := Ideal) (m ((c : Thread nD τ).loc main_arg3)) := by
  show StableHlo.after hostOps2 (W3 m ρ c) (Proc.devRef .tc main_v10) = _
  have h_arg3 := W3_arg3 m ρ c
  generalize W3 m ρ c = V at h_arg3 ⊢
  after_results_simp
  rw [h_arg3]
  unfold val_main_v31 val_main_v30
  rfl

set_option maxHeartbeats 1000000 in
theorem W4_v15 (c : Dev nD) : W4 m ρ c (Proc.devRef .tc main_v15) = val_main_v36 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps2 (W3 m ρ c) (Proc.devRef .tc main_v15) = _
  have h_v5 := W3_v5 m ρ c
  have h_arg3 := W3_arg3 m ρ c
  generalize W3 m ρ c = V at h_v5 h_arg3 ⊢
  after_results_simp
  rw [h_v5, h_arg3]
  unfold val_main_v36 val_main_v35 val_main_cst_4 val_main_v34 val_main_v33 val_main_v32 val_main_cst_3 val_main_v31 val_main_v30 val_main_v27
  rfl

set_option maxHeartbeats 1000000 in
theorem W4_v18 (c : Dev nD) : W4 m ρ c (Proc.devRef .tc main_v18) = val_main_v39 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps2 (W3 m ρ c) (Proc.devRef .tc main_v18) = _
  have h_v5 := W3_v5 m ρ c
  have h_arg3 := W3_arg3 m ρ c
  generalize W3 m ρ c = V at h_v5 h_arg3 ⊢
  after_results_simp
  rw [h_v5, h_arg3]
  unfold val_main_v39 val_main_v38 val_main_v37 val_main_cst_5 val_main_v34 val_main_v33 val_main_v32 val_main_cst_3 val_main_v31 val_main_v30 val_main_v27
  rfl

set_option maxHeartbeats 1000000 in
theorem W4_cst_3 (c : Dev nD) : W4 m ρ c (Proc.devRef .tc main_cst_3) = val_main_cst_6 (F := Ideal)  := by
  show StableHlo.after hostOps2 (W3 m ρ c) (Proc.devRef .tc main_cst_3) = _
  generalize W3 m ρ c = V
  after_results_simp
  unfold val_main_cst_6
  rfl

theorem W4_v4 (c : Dev nD) : W4 m ρ c (Proc.devRef .tc main_v4) = val_main_v8 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  carried [W4, hostOps2]
  exact W3_v4 m ρ c

set_option maxHeartbeats 1000000 in
set_option maxHeartbeats 1000000 in
theorem W5_v19 (c : Dev nD) : W5 m ρ c (Proc.devRef .tc main_v19) = val_main_v40 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps2_1 (W4 m ρ c) (Proc.devRef .tc main_v19) = _
  have h_v15 := W4_v15 m ρ c
  have h_v18 := W4_v18 m ρ c
  have h_cst_3 := W4_cst_3 m ρ c
  generalize W4 m ρ c = V at h_v15 h_v18 h_cst_3 ⊢
  after_results_simp
  generalize V (Proc.devRef .tc main_v15) = X15 at h_v15 ⊢
  generalize V (Proc.devRef .tc main_v18) = X18 at h_v18 ⊢
  generalize V (Proc.devRef .tc main_cst_3) = X3 at h_cst_3 ⊢
  show select (X15 : IVec S50000 1) (X18 : FVec Ideal S50000 .f32) (broadcastInDim S50000 ![] bcast_S_S50000 (id (X3 : FVec Ideal S_ .f32))) = _
  rw [h_v15, h_v18, h_cst_3]
  unfold val_main_v40 val_main_call0_v1 val_main_call0_v0
  rfl

theorem W5_v6 (c : Dev nD) : W5 m ρ c (Proc.devRef .tc main_v6) = val_main_v27 (F := Ideal) (m ((c : Thread nD τ).loc main_arg4)) (m ((c : Thread nD τ).loc main_arg8)) (m ((c : Thread nD τ).loc main_arg9)) (m ((c : Thread nD τ).loc main_arg10)) (m ((c : Thread nD τ).loc main_arg11)) := by
  carried [W5, hostOps2_1]
  exact W4_v6 m ρ c
theorem W5_v8 (c : Dev nD) : W5 m ρ c (Proc.devRef .tc main_v8) = val_main_v29 (F := Ideal) (m ((c : Thread nD τ).loc main_arg3)) := by
  carried [W5, hostOps2_1]
  exact W4_v8 m ρ c
theorem W5_v10 (c : Dev nD) : W5 m ρ c (Proc.devRef .tc main_v10) = val_main_v31 (F := Ideal) (m ((c : Thread nD τ).loc main_arg3)) := by
  carried [W5, hostOps2_1]
  exact W4_v10 m ρ c
theorem W5_v4 (c : Dev nD) : W5 m ρ c (Proc.devRef .tc main_v4) = val_main_v8 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  carried [W5, hostOps2_1]
  exact W4_v4 m ρ c

/-! ## The edge weights: the gate scaled by the inverse square roots of the degrees at the edge's two ends -/

set_option maxHeartbeats 1000000 in
theorem W6_v35 (c : Dev nD) : W6 m ρ c (Proc.devRef .tc main_v35) = val_main_v56 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps2_2 (W5 m ρ c) (Proc.devRef .tc main_v35) = _
  have h_v8 := W5_v8 m ρ c
  have h_v10 := W5_v10 m ρ c
  have h_v6 := W5_v6 m ρ c
  have h_v19 := W5_v19 m ρ c
  generalize W5 m ρ c = V at h_v8 h_v10 h_v6 h_v19 ⊢
  after_results_simp
  rw [h_v8, h_v10, h_v6, h_v19]
  unfold val_main_v56 val_main_v55 val_main_v54 val_main_v53 val_main_v52 val_main_v51 val_main_c_9 val_main_v50 val_main_v49 val_main_c_8 val_main_v48 val_main_v47 val_main_v46 val_main_v45 val_main_v44 val_main_v43 val_main_c_7 val_main_v42 val_main_v41 val_main_c
  rfl

theorem W6_v8 (c : Dev nD) : W6 m ρ c (Proc.devRef .tc main_v8) = val_main_v29 (F := Ideal) (m ((c : Thread nD τ).loc main_arg3)) := by
  carried [W6, hostOps2_2]
  exact W5_v8 m ρ c
theorem W6_v10 (c : Dev nD) : W6 m ρ c (Proc.devRef .tc main_v10) = val_main_v31 (F := Ideal) (m ((c : Thread nD τ).loc main_arg3)) := by
  carried [W6, hostOps2_2]
  exact W5_v10 m ρ c
theorem W6_v4 (c : Dev nD) : W6 m ρ c (Proc.devRef .tc main_v4) = val_main_v8 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  carried [W6, hostOps2_2]
  exact W5_v4 m ρ c
theorem W6_arg7 (c : Dev nD) : W6 m ρ c (Proc.devRef .tc main_arg7) = (m ((c : Thread nD τ).loc main_arg7)) := by
  carried [W6, hostOps2_2, W5, hostOps2_1, W4, hostOps2, W1, hostOps0]

/-! ## The first message pass -/

theorem W7_v36 (c : Dev nD) : W7 m ρ c (Proc.devRef .tc main_v36) = val_main_v58 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W7_arr m ρ c 2).trans ?_
  rw [Reg2.arr, Cert.ReferenceIdeal.RefSpec.proj1]
  show Spec.mulT (W6 m ρ c (Proc.devRef .tc main_v4)) (W6 m ρ c (Proc.devRef .tc main_arg7)) = _
  rw [W6_v4, W6_arg7]
theorem W7_v8 (c : Dev nD) : W7 m ρ c (Proc.devRef .tc main_v8) = val_main_v29 (F := Ideal) (m ((c : Thread nD τ).loc main_arg3)) :=
  (W7_of_ne m ρ c main_v8 (by decide)).trans (W6_v8 m ρ c)
theorem W7_v10 (c : Dev nD) : W7 m ρ c (Proc.devRef .tc main_v10) = val_main_v31 (F := Ideal) (m ((c : Thread nD τ).loc main_arg3)) :=
  (W7_of_ne m ρ c main_v10 (by decide)).trans (W6_v10 m ρ c)
theorem W7_v35 (c : Dev nD) : W7 m ρ c (Proc.devRef .tc main_v35) = val_main_v56 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) :=
  (W7_of_ne m ρ c main_v35 (by decide)).trans (W6_v35 m ρ c)

/-- The convolution weights are an input of the first projection's launch: it leaves them as it found them. -/
theorem W7_arg7 (c : Dev nD) : W7 m ρ c (Proc.devRef .tc main_arg7) = (m ((c : Thread nD τ).loc main_arg7)) :=
  ((W7_arr m ρ c 1).trans (((dat2 (V6 m ρ) c).arrAt_in 1 rfl _).trans (A_eq2 (V6 m ρ) c 1))).trans (W6_arg7 m ρ c)

set_option maxHeartbeats 1000000 in
theorem W8_v49 (c : Dev nD) : W8 m ρ c (Proc.devRef .tc main_v49) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W7 m ρ c) (Proc.devRef .tc main_v49) = _
  have h_v8 := W7_v8 m ρ c
  have h_v10 := W7_v10 m ρ c
  have h_v35 := W7_v35 m ρ c
  have h_v36 := W7_v36 m ρ c
  generalize W7 m ρ c = V at h_v8 h_v10 h_v35 h_v36 ⊢
  after_results_simp
  rw [h_v8, h_v10, h_v35, h_v36]
  unfold val_main_v71 val_main_v70 val_main_v69 val_main_cst_12 val_main_v68 val_main_v67 val_main_v66 val_main_v65 val_main_v64 val_main_v63 val_main_v62 val_main_v61 val_main_c_11 val_main_v60 val_main_v59 val_main_c_10
  rfl

theorem W8_v8 (c : Dev nD) : W8 m ρ c (Proc.devRef .tc main_v8) = val_main_v29 (F := Ideal) (m ((c : Thread nD τ).loc main_arg3)) := by
  carried [W8, hostOps3]
  exact W7_v8 m ρ c
theorem W8_v10 (c : Dev nD) : W8 m ρ c (Proc.devRef .tc main_v10) = val_main_v31 (F := Ideal) (m ((c : Thread nD τ).loc main_arg3)) := by
  carried [W8, hostOps3]
  exact W7_v10 m ρ c
theorem W8_v35 (c : Dev nD) : W8 m ρ c (Proc.devRef .tc main_v35) = val_main_v56 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  carried [W8, hostOps3]
  exact W7_v35 m ρ c
theorem W8_arg7 (c : Dev nD) : W8 m ρ c (Proc.devRef .tc main_arg7) = (m ((c : Thread nD τ).loc main_arg7)) := by
  carried [W8, hostOps3]
  exact W7_arg7 m ρ c

theorem W9_v50 (c : Dev nD) : W9 m ρ c (Proc.devRef .tc main_v50) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 2).trans ?_
  rw [Reg3.arr, Cert.ReferenceIdeal.RefSpec.proj2]
  show Spec.mulT (W8 m ρ c (Proc.devRef .tc main_v49)) (W8 m ρ c (Proc.devRef .tc main_arg7)) = _
  rw [W8_v49, W8_arg7]
theorem W9_v8 (c : Dev nD) : W9 m ρ c (Proc.devRef .tc main_v8) = val_main_v29 (F := Ideal) (m ((c : Thread nD τ).loc main_arg3)) :=
  (W9_of_ne m ρ c main_v8 (by decide)).trans (W8_v8 m ρ c)
theorem W9_v10 (c : Dev nD) : W9 m ρ c (Proc.devRef .tc main_v10) = val_main_v31 (F := Ideal) (m ((c : Thread nD τ).loc main_arg3)) :=
  (W9_of_ne m ρ c main_v10 (by decide)).trans (W8_v10 m ρ c)
theorem W9_v35 (c : Dev nD) : W9 m ρ c (Proc.devRef .tc main_v35) = val_main_v56 (F := Ideal) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) :=
  (W9_of_ne m ρ c main_v35 (by decide)).trans (W8_v35 m ρ c)

set_option maxHeartbeats 1000000 in
theorem W10_v63 (c : Dev nD) : W10 m ρ c (Proc.devRef .tc main_v63) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W9 m ρ c) (Proc.devRef .tc main_v63) = _
  have h_v8 := W9_v8 m ρ c
  have h_v10 := W9_v10 m ρ c
  have h_v35 := W9_v35 m ρ c
  have h_v50 := W9_v50 m ρ c
  generalize W9 m ρ c = V at h_v8 h_v10 h_v35 h_v50 ⊢
  after_results_simp
  rw [h_v8, h_v10, h_v35, h_v50]
  unfold val_main_v86 val_main_v85 val_main_v84 val_main_cst_15 val_main_v83 val_main_v82 val_main_v81 val_main_v80 val_main_v79 val_main_v78 val_main_v77 val_main_v76 val_main_c_14 val_main_v75 val_main_v74 val_main_c_13
  rfl

set_option maxHeartbeats 1000000 in
set_option maxHeartbeats 1000000 in
theorem W11_v64 (c : Dev nD) : W11 m ρ c (Proc.devRef .tc main_v64) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4_1 (W10 m ρ c) (Proc.devRef .tc main_v64) = _
  have h_v63 := W10_v63 m ρ c
  generalize W10 m ρ c = V at h_v63 ⊢
  after_results_simp
  generalize V (Proc.devRef .tc main_v63) = X63 at h_v63 ⊢
  show maximumf (X63 : FVec Ideal S50000x128 .f32) (broadcastInDim S50000x128 ![] bcast_S_S50000x128 (constant (F := Ideal) S_ .f32 0x00000000#32)) = _
  rw [h_v63]
  unfold val_main_v87 val_main_call1_v0 val_main_call1_cst
  rfl

theorem W11_arg12 (c : Dev nD) : W11 m ρ c (Proc.devRef .tc main_arg12) = (m ((c : Thread nD τ).loc main_arg12)) := by
  carried [W11, hostOps4_1, W10, hostOps4, W8, hostOps3, W6, hostOps2_2, W5, hostOps2_1, W4, hostOps2, W1, hostOps0]
theorem W11_arg13 (c : Dev nD) : W11 m ρ c (Proc.devRef .tc main_arg13) = (m ((c : Thread nD τ).loc main_arg13)) := by
  carried [W11, hostOps4_1, W10, hostOps4, W8, hostOps3, W6, hostOps2_2, W5, hostOps2_1, W4, hostOps2, W1, hostOps0]
theorem W11_arg14 (c : Dev nD) : W11 m ρ c (Proc.devRef .tc main_arg14) = (m ((c : Thread nD τ).loc main_arg14)) := by
  carried [W11, hostOps4_1, W10, hostOps4, W8, hostOps3, W6, hostOps2_2, W5, hostOps2_1, W4, hostOps2, W1, hostOps0]
theorem W11_arg15 (c : Dev nD) : W11 m ρ c (Proc.devRef .tc main_arg15) = (m ((c : Thread nD τ).loc main_arg15)) := by
  carried [W11, hostOps4_1, W10, hostOps4, W8, hostOps3, W6, hostOps2_2, W5, hostOps2_1, W4, hostOps2, W1, hostOps0]
theorem W11_arg16 (c : Dev nD) : W11 m ρ c (Proc.devRef .tc main_arg16) = (m ((c : Thread nD τ).loc main_arg16)) := by
  carried [W11, hostOps4_1, W10, hostOps4, W8, hostOps3, W6, hostOps2_2, W5, hostOps2_1, W4, hostOps2, W1, hostOps0]

/-! ## The output head -/

/-- The result buffer after the last launch is the reference's last stage, as a function of the launch contents of the arguments. -/
theorem W12_v65 (c : Dev nD) : W12 m ρ c (Proc.devRef .tc main_v65) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W12_arr m ρ c 6).trans ?_
  rw [Reg4.arr, Cert.ReferenceIdeal.RefSpec.head]
  show Spec.head (W11 m ρ c (Proc.devRef .tc main_v64)) (W11 m ρ c (Proc.devRef .tc main_arg12)) (W11 m ρ c (Proc.devRef .tc main_arg13)) (W11 m ρ c (Proc.devRef .tc main_arg14)) (W11 m ρ c (Proc.devRef .tc main_arg15)) (W11 m ρ c (Proc.devRef .tc main_arg16)) = _
  rw [W11_v64, W11_arg12, W11_arg13, W11_arg14, W11_arg15, W11_arg16]

end Cert.KernelIdeal.KVal

end
-- ==== Proof.lean ====
/-
  The certificate of a message-passing network whose dense layers run as row-tiled kernels.
  Both programs scatter the messages onto the nodes, apply a linear layer, gate the bond edges through a small
  perceptron and a sigmoid, normalise by the inverse square roots of the summed gates, pass messages twice
  (a projection, a gather along the edges, a scaling by the edge weight, a scatter back onto the nodes), and end in
  an output head of five layers. The kernel program computes the five dense pieces band by band of rows; the
  reference computes them as whole-array contractions. Over the extended reals a band of rows of `x · wᵀ + b`
  is that band of the whole product, a sum over the contracted axis is the same sum on both sides, and the
  logistic function is `1 / (1 + e^(-y))` on both sides, so each dense piece ends at the same array
  (`Cert.Spec`); everything between the dense pieces is the same sequence of host operations applied to equal arrays.
  No law that needs finiteness is used: the precondition is never opened.
-/
import proofs.«427005_j40638980555086_1_alg».proof.Defs
import proofs.«427005_j40638980555086_1_alg».proof.Proof.Gen.Kernel
import proofs.«427005_j40638980555086_1_alg».proof.Proof.Gen.Kernel.Frame
import proofs.«427005_j40638980555086_1_alg».proof.Proof.Gen.KernelIdeal
import proofs.«427005_j40638980555086_1_alg».proof.Proof.Gen.KernelIdeal.Frame
import proofs.«427005_j40638980555086_1_alg».proof.Proof.Gen.ReferenceIdeal
import proofs.«427005_j40638980555086_1_alg».proof.Proof.Gen.ReferenceIdeal.Run
import proofs.«427005_j40638980555086_1_alg».proof.Proof.Gen.ReferenceIdeal.Read
import proofs.«427005_j40638980555086_1_alg».proof.Proof.Gen.Pre_finite_inputs
import proofs.«427005_j40638980555086_1_alg».proof.Proof.KRun
import proofs.«427005_j40638980555086_1_alg».proof.Proof.KVal
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the node scores at the reference's last stage read at the kernel program's launch
    contents: the kernel program by the boundary-by-boundary reading of its run, the reference by its own run,
    the two memories agreeing on every argument. -/
theorem algebraic : Cert.algebraic_KernelIdeal_ReferenceIdeal := by
  intro m ρ m' ρ' _ hagree
  refine ⟨fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KVal.W12_v65 m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v124_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
